-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x4096 : Shape := ⟨2, ![8, 4096]⟩
abbrev S8x512x3 : Shape := ⟨3, ![8, 512, 3]⟩
abbrev S8x256x3 : Shape := ⟨3, ![8, 256, 3]⟩
abbrev S8x512 : Shape := ⟨2, ![8, 512]⟩
abbrev S8x512x1 : Shape := ⟨3, ![8, 512, 1]⟩
abbrev S8x256x1 : Shape := ⟨3, ![8, 256, 1]⟩
abbrev S8x256 : Shape := ⟨2, ![8, 256]⟩
abbrev S8x1x256 : Shape := ⟨3, ![8, 1, 256]⟩
abbrev S8x512x256 : Shape := ⟨3, ![8, 512, 256]⟩
abbrev S_ : Shape := ⟨0, ![]⟩

abbrev nBuf : Space → Nat
  | .hbm => 15
  | .vmem => 12
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096, .f32⟩
  | .hbm, ⟨3, _⟩ => ⟨S8x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .local _ .vmem, ⟨0, _⟩ => ⟨S8x512x3, .f32⟩
  | .local _ .vmem, ⟨1, _⟩ => ⟨S8x512x3, .f32⟩
  | .local _ .vmem, ⟨2, _⟩ => ⟨S8x256x3, .f32⟩
  | .local _ .vmem, ⟨3, _⟩ => ⟨S8x256x3, .f32⟩
  | .local _ .vmem, ⟨4, _⟩ => ⟨S8x512, .f32⟩
  | .local _ .vmem, ⟨5, _⟩ => ⟨S8x512, .f32⟩
  | .local _ .vmem, ⟨6, _⟩ => ⟨S8x512x3, .f32⟩
  | .local _ .vmem, ⟨7, _⟩ => ⟨S8x512x3, .f32⟩
  | .local _ .vmem, ⟨8, _⟩ => ⟨S8x256x3, .f32⟩
  | .local _ .vmem, ⟨9, _⟩ => ⟨S8x256x3, .f32⟩
  | .local _ .vmem, ⟨10, _⟩ => ⟨S8x512, .f32⟩
  | .local _ .vmem, ⟨11, _⟩ => ⟨S8x512, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_v6 : Ref sig .tc := ⟨.hbm, 12, rfl⟩
abbrev main_cst_3 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S8x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x256x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S8x512_S8x512_0_0 : ∀ a, (![0, 0] : Fin 2 → Nat) a + S8x512.size a ≤ S8x512.size a
  h_S8x512 : 0 < S8x512.numel
  inb_S8x512x3_S8x512x3_0_0_0 : ∀ a, (![0, 0, 0] : Fin 3 → Nat) a + S8x512x3.size a ≤ S8x512x3.size a
  h_S8x512x3 : 0 < S8x512x3.numel
  inb_S8x256x3_S8x256x3_0_0_0 : ∀ a, (![0, 0, 0] : Fin 3 → Nat) a + S8x256x3.size a ≤ S8x256x3.size a
  h_S8x256x3 : 0 < S8x256x3.numel
  slices_S8x512x3_o0_0_0_S8x512x1 : S8x512x3.Slices ![0, 0, 0] S8x512x1
  shapeCasts_S8x512x1_S8x512 : S8x512x1.ShapeCasts S8x512
  slices_S8x512x3_o0_0_1_S8x512x1 : S8x512x3.Slices ![0, 0, 1] S8x512x1
  slices_S8x512x3_o0_0_2_S8x512x1 : S8x512x3.Slices ![0, 0, 2] S8x512x1
  slices_S8x256x3_o0_0_0_S8x256x1 : S8x256x3.Slices ![0, 0, 0] S8x256x1
  shapeCasts_S8x256x1_S8x256 : S8x256x1.ShapeCasts S8x256
  slices_S8x256x3_o0_0_1_S8x256x1 : S8x256x3.Slices ![0, 0, 1] S8x256x1
  slices_S8x256x3_o0_0_2_S8x256x1 : S8x256x3.Slices ![0, 0, 2] S8x256x1
  shapeCasts_S8x512_S8x512x1 : S8x512.ShapeCasts S8x512x1
  shapeCasts_S8x256_S8x1x256 : S8x256.ShapeCasts S8x1x256
  broadcasts_S8x512x1_S8x512x256 : S8x512x1.Broadcasts S8x512x256
  broadcasts_S8x1x256_S8x512x256 : S8x1x256.Broadcasts S8x512x256
  reduces_S8x512x256_S8x512 : S8x512x256.Reduces [2] S8x512
  shapeCasts_S8x512_S8x512 : S8x512.ShapeCasts S8x512
  reducesTo_S8x4096_S_d0_1 : S8x4096.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x3.size a ≤ S8x4096x3.size a
  hwx0_0 : ∀ i : grid0.Coords, EltTy.bits .f32 = 32 ∨ (Rect.block (s := S8x4096x3) S8x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x3.size a ≤ S8x4096x3.size a
  hwx0_1 : ∀ i : grid0.Coords, EltTy.bits .f32 = 32 ∨ (Rect.block (s := S8x4096x3) S8x256x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x3.size a ≤ S8x4096x3.size a
  hwx1_0 : ∀ i : grid1.Coords, EltTy.bits .f32 = 32 ∨ (Rect.block (s := S8x4096x3) S8x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x3.size a ≤ S8x4096x3.size a
  hwx1_1 : ∀ i : grid1.Coords, EltTy.bits .f32 = 32 ∨ (Rect.block (s := S8x4096x3) S8x256x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S8x4096.size a
  hwx1_2 : ∀ i : grid1.Coords, EltTy.bits .f32 = 32 ∨ (Rect.block (s := S8x4096) S8x512.size (cc1_transform_2 i) (hinb1_2 i)).WholeWords (EltTy.packing .f32)

variable [Facts₀]

abbrev win0_0 : Pipeline.Window sig grid0 :=
  Pipeline.Window.ofSpec (Memref.whole main_arg0) S8x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S8x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S8x256x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S8x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩
abbrev S8 : Shape := ⟨1, ![8]⟩

abbrev nBuf : Space → Nat
  | .hbm => 47
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S8x4096x4096, .f32⟩
  | .hbm, ⟨22, _⟩ => ⟨S_, .f32⟩
  | .hbm, ⟨23, _⟩ => ⟨S8x4096, .f32⟩
  | .hbm, ⟨24, _⟩ => ⟨S_, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_cst_11 : Ref sig .tc := ⟨.hbm, 40, rfl⟩
abbrev main_v26 : Ref sig .tc := ⟨.hbm, 41, rfl⟩
abbrev main_cst_12 : Ref sig .tc := ⟨.hbm, 42, rfl⟩
abbrev main_v27 : Ref sig .tc := ⟨.hbm, 43, rfl⟩
abbrev main_v28 : Ref sig .tc := ⟨.hbm, 44, rfl⟩
abbrev main_cst_13 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096_S8_d1 : S8x4096.ReducesTo [1] S8
  bcast_S_S8 : S_.BroadcastsInDim S8 (![] : Fin 0 → Fin S8.rank)
  reducesTo_S8x4096x4096_S8x4096_d1 : S8x4096x4096.ReducesTo [1] S8x4096
  reducesTo_S8_S_d0 : S8.ReducesTo [0] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.Consts.lean ====
/-
  The float constants of the two programs whose VALUE the proof uses, as the extended reals their bit patterns
  denote: the three divisors of the means (4096 points, 8 batches, 8 · 4096 = 32768 entries). Every other literal
  (0.0, 1.0, 2.0, +∞) occurs with the same pattern on both sides and is never evaluated, except the zero, which the
  library already reads as `0`.
-/
import Idealize.ShloMosaic.PureOps.Ideal

noncomputable section

namespace Cert.Consts

open Idealize.ShloMosaic

/-- `4096.0` denotes the real `4096`. -/
theorem ofBits_4096 : Ideal.ofBits .f32 0x45800000#32 = ((4096 : ℝ) : EReal) := by
  simp [Ideal.ofBits, Ideal.ieee, -EReal.coe_mul]; norm_num

/-- `8.0` denotes the real `8`. -/
theorem ofBits_8 : Ideal.ofBits .f32 0x41000000#32 = ((8 : ℝ) : EReal) := by
  simp [Ideal.ofBits, Ideal.ieee, -EReal.coe_mul]; norm_num

/-- `32768.0` denotes the real `32768`. -/
theorem ofBits_32768 : Ideal.ofBits .f32 0x47000000#32 = ((32768 : ℝ) : EReal) := by
  simp [Ideal.ofBits, Ideal.ieee, -EReal.coe_mul]; norm_num

end Cert.Consts

end
-- ==== Proof.Spec.lean ====
/-
  The mathematics both programs compute, over the extended reals.

  A batch holds `A` clouds of points of 3-space, stored as an `[A, N, 3]` array `x`: point `n` of cloud `b` has the
  coordinates `x (b, n, 0)`, `x (b, n, 1)`, `x (b, n, 2)`. For two batches `x`, `y` the distance of point `n` of `x`'s
  cloud `b` to point `m` of `y`'s cloud `b` is computed from the Gram identity
  `|p - q|² = |p|² + |q|² - 2 ⟨p, q⟩`, clamped at zero before the square root. `near x y b n` is the least such
  distance over all points `m` of `y`'s cloud (started from +∞), and the loss is the mean of `near x y` over all
  `8 · 4096` pairs `(b, n)` plus the mean of `near y x`.

  Two laws join the kernel's arrangement to the reference's. The distance is symmetric under exchanging the two
  batches together with the two point indices: sums and products of extended reals commute. And a mean of row
  means over equal rows is the mean of all entries: dividing by a positive real is multiplying by a nonnegative
  finite constant, which distributes over every sum of extended reals, infinite entries included.
-/
import Idealize.ShloMosaic.Lib.ValueIdx
import Idealize.ShloMosaic.PureOps.Ideal.Laws
import proofs.«128262_j24215025614920_1_alg».proof.Proof.Consts

noncomputable section

namespace Cert.Chamfer

open Idealize.ShloMosaic Idealize.ShloMosaic.ValueIdx

/-- `A` clouds of `N` points of 3-space. -/
abbrev Cloud (A N : ℕ) : Type := (⟨3, ![A, N, 3]⟩ : Shape).Idx → EReal

/-- The squared length of point `n` of cloud `b`. -/
def sq {A N : ℕ} (x : Cloud A N) (b : Fin A) (n : Fin N) : EReal :=
  x (ix3 b n 0) * x (ix3 b n 0) + x (ix3 b n 1) * x (ix3 b n 1) + x (ix3 b n 2) * x (ix3 b n 2)

/-- The inner product of point `n` of `x`'s cloud `b` with point `m` of `y`'s cloud `b`. -/
def cross {A N M : ℕ} (x : Cloud A N) (y : Cloud A M) (b : Fin A) (n : Fin N) (m : Fin M) : EReal :=
  x (ix3 b n 0) * y (ix3 b m 0) + x (ix3 b n 1) * y (ix3 b m 1) + x (ix3 b n 2) * y (ix3 b m 2)

/-- Their distance by the Gram identity, the squared distance clamped at zero. -/
def dist {A N M : ℕ} (x : Cloud A N) (y : Cloud A M) (b : Fin A) (n : Fin N) (m : Fin M) : EReal :=
  Ideal.sqrt (max (sq x b n + sq y b m - Ideal.ofBits .f32 0x40000000#32 * cross x y b n m)
    (Ideal.ofBits .f32 0x00000000#32))

/-- The distance of point `n` of `x`'s cloud `b` to the nearest point of `y`'s cloud `b`. -/
def near {A N M : ℕ} (x : Cloud A N) (y : Cloud A M) (b : Fin A) (n : Fin N) : EReal :=
  (Finset.univ : Finset (Fin M)).fold min (Ideal.ofBits .f32 0x7F800000#32) fun m => dist x y b n m

/-- The nearest-point distances as an `[A, N]` array. -/
def nearArr {A N M : ℕ} (x : Cloud A N) (y : Cloud A M) : (⟨2, ![A, N]⟩ : Shape).Idx → EReal :=
  fun i => near x y (i 0) (i 1)

/-- The mean of an `[8, 4096]` array: zero plus the sum of all entries, divided by their number. -/
def meanAll (f : (⟨2, ![8, 4096]⟩ : Shape).Idx → EReal) : EReal :=
  Ideal.div (Ideal.ofBits .f32 0x00000000#32 + ∑ i, f i) (Ideal.ofBits .f32 0x47000000#32)

/-- The loss: the two directed mean nearest-point distances, added, times the weight one. -/
def loss (x y : Cloud 8 4096) : EReal :=
  Ideal.ofBits .f32 0x3F800000#32 * (meanAll (nearArr x y) + meanAll (nearArr y x))

/-! ## The distance is symmetric -/

theorem cross_swap {A N M : ℕ} (x : Cloud A N) (y : Cloud A M) (b : Fin A) (n : Fin N) (m : Fin M) :
    cross x y b n m = cross y x b m n := by
  unfold cross
  rw [mul_comm (x (ix3 b n 0)), mul_comm (x (ix3 b n 1)), mul_comm (x (ix3 b n 2))]

theorem dist_swap {A N M : ℕ} (x : Cloud A N) (y : Cloud A M) (b : Fin A) (n : Fin N) (m : Fin M) :
    dist x y b n m = dist y x b m n := by
  unfold dist
  rw [cross_swap, add_comm (sq x b n)]

/-- The distance depends on the two points' coordinates only. -/
theorem dist_congr {A N M N' M' : ℕ} (x : Cloud A N) (y : Cloud A M) (x' : Cloud A N') (y' : Cloud A M')
    (b : Fin A) (n : Fin N) (m : Fin M) (n' : Fin N') (m' : Fin M')
    (hx : ∀ d : Fin 3, x (ix3 b n d) = x' (ix3 b n' d)) (hy : ∀ d : Fin 3, y (ix3 b m d) = y' (ix3 b m' d)) :
    dist x y b n m = dist x' y' b n' m' := by
  unfold dist sq cross
  rw [hx 0, hx 1, hx 2, hy 0, hy 1, hy 2]

/-! ## A mean of row means is the mean of all entries -/

/-- A nonnegative finite constant distributes over a finite sum of extended reals. -/
theorem sum_mul_const {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih =>
    rw [Finset.sum_insert ha, Finset.sum_insert ha, EReal.right_distrib_of_nonneg_of_ne_top h0 ht, ih]

/-- A rank-1 index is its one coordinate. -/
def idxEquiv1 {n : ℕ} : (⟨1, ![n]⟩ : Shape).Idx ≃ Fin n where
  toFun i := i 0
  invFun a := ix1 a
  left_inv i := (eq_ix1 i).symm
  right_inv _ := rfl

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- The mean over the 8 clouds of the means over each cloud's 4096 entries is the mean of all 32768 entries. -/
theorem mean_rows (g : (⟨2, ![8, 4096]⟩ : Shape).Idx → EReal) :
    Ideal.div (Ideal.ofBits .f32 0x00000000#32 + ∑ j : (⟨1, ![8]⟩ : Shape).Idx,
        Ideal.div (Ideal.ofBits .f32 0x00000000#32 + ∑ k : Fin 4096, g (ix2 (j 0) k)) (Ideal.ofBits .f32 0x45800000#32))
      (Ideal.ofBits .f32 0x41000000#32) = meanAll g := by
  unfold meanAll
  rw [Cert.Consts.ofBits_4096, Cert.Consts.ofBits_8, Cert.Consts.ofBits_32768,
    Ideal.div_coe (by norm_num : (8 : ℝ) ≠ 0), Ideal.div_coe (by norm_num : (32768 : ℝ) ≠ 0)]
  simp only [Ideal.div_coe (by norm_num : (4096 : ℝ) ≠ 0), Ideal.ofBits_zero_f32, zero_add]
  rw [sum_idx1, sum_idx2]
  have h0 : (0 : EReal) ≤ ((1 / 4096 : ℝ) : EReal) := by exact_mod_cast (by norm_num : (0 : ℝ) ≤ 1 / 4096)
  have ht : ((1 / 4096 : ℝ) : EReal) ≠ ⊤ := EReal.coe_ne_top _
  rw [← sum_mul_const _ _ h0 ht, mul_assoc, ← EReal.coe_mul]
  norm_num

end Cert.Chamfer

end
-- ==== Proof.LibMinReduce.lean ====
/-
  A float minimum-reduction over one axis, read at the extended reals at an index given by coordinates: the fold of `min`
  from the accumulator's value over that axis's coordinates. For a kernel's lane reduction over the columns or over the rows
  of a matrix, and for the host's `reduce` with a minimum body over the last or the middle axis of a rank-3 array.
-/
import Idealize.ShloMosaic.Lib.ValueIdx
import Idealize.ShloMosaic.PureOps.Ideal.Laws

namespace Idealize.ShloMosaic.ValueIdx

open Idealize.ShloMosaic

/-- A float `multi_reduction <minimumf>` over one axis at the extended reals: the fold of `min` from the accumulator's value
    over that axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- Over the COLUMNS of an `[a, b]` matrix: in row `r`, the minimum of that row. -/
theorem multiReduction_min_cols_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.minimumf.neutral .f32 hφ) (r : Fin a) :
    multiReduction .minimumf [1] ⟨1, ![a]⟩ src acc h hφ hacc (ix1 r)
      = (Finset.univ : Finset (Fin b)).fold min (Ideal.ofBits .f32 acc) fun c => src (ix2 r c) :=
  (multiReduction_minimumf_single src acc h hφ hacc (ix1 r)).trans
    (Finset.fold_congr fun c _ => congrArg src (funext fun ax => Fin.ext (by
      match ax with
      | ⟨0, _⟩ => rfl
      | ⟨1, _⟩ => rfl)))

/-- Over the ROWS of an `[a, b]` matrix: in column `j`, the minimum of that column. -/
theorem multiReduction_min_rows_apply {a b : ℕ} (src : FVec Ideal ⟨2, ![a, b]⟩ .f32) (acc : BitVec 32)
    (h : (⟨2, ![a, b]⟩ : Shape).Reduces [0] ⟨1, ![b]⟩) (hφ : FKind.Formats .f32)
    (hacc : acc = FKind.minimumf.neutral .f32 hφ) (j : Fin b) :
    multiReduction .minimumf [0] ⟨1, ![b]⟩ src acc h hφ hacc (ix1 j)
      = (Finset.univ : Finset (Fin a)).fold min (Ideal.ofBits .f32 acc) fun r => src (ix2 r j) :=
  (multiReduction_minimumf_single src acc h hφ hacc (ix1 j)).trans
    (Finset.fold_congr fun c _ => congrArg src (funext fun ax => Fin.ext (by
      match ax with
      | ⟨0, _⟩ => rfl
      | ⟨1, _⟩ => rfl)))

/-- The host's `reduce` with a minimum body over the LAST axis of an `[a, b, c]` array: at `(i, j)`, the minimum from the
    initial value over `k` of the entries `(i, j, k)`. -/
theorem hostReduce_min_last_apply {a b c : ℕ} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (i : Fin a) (j : Fin b) :
    Host.reduce FloatOps.minimumf x init h' hu (ix2 i j)
      = (Finset.univ : Finset (Fin c)).fold min (init (Shape.Idx.first hu)) fun k => x (ix3 i j k) :=
  (Host.reduce_eq_fold_single FloatOps.minimumf x init h' h hu (ix2 i j)).trans
    (Finset.fold_congr fun k _ => congrArg x (funext fun ax => Fin.ext (by
      match ax with
      | ⟨0, _⟩ => rfl
      | ⟨1, _⟩ => rfl
      | ⟨2, _⟩ => rfl)))

/-- The same over the MIDDLE axis: at `(i, k)`, the minimum from the initial value over `j` of the entries `(i, j, k)`. -/
theorem hostReduce_min_mid_apply {a b c : ℕ} {u : Shape} (x : FVec Ideal ⟨3, ![a, b, c]⟩ .f32) (init : u.Idx → Ideal .f32)
    (h' : (⟨3, ![a, b, c]⟩ : Shape).ReducesTo [1] ⟨2, ![a, c]⟩) (h : (⟨3, ![a, b, c]⟩ : Shape).Reduces [1] ⟨2, ![a, c]⟩)
    (hu : 0 < u.numel) (i : Fin a) (k : Fin c) :
    Host.reduce FloatOps.minimumf x init h' hu (ix2 i k)
      = (Finset.univ : Finset (Fin b)).fold min (init (Shape.Idx.first hu)) fun j => x (ix3 i j k) :=
  (Host.reduce_eq_fold_single FloatOps.minimumf x init h' h hu (ix2 i k)).trans
    (Finset.fold_congr fun j _ => congrArg x (funext fun ax => Fin.ext (by
      match ax with
      | ⟨0, _⟩ => rfl
      | ⟨1, _⟩ => rfl
      | ⟨2, _⟩ => rfl)))

end Idealize.ShloMosaic.ValueIdx
-- ==== Proof.RefSpec.lean ====
/-
  The reference program's result, read one operation at a time, is the loss of the specification.

  Bottom up: the two row sums of squares are the squared lengths, the contraction over the three coordinates is the
  inner product, so the clamped square root of their Gram combination is the distance of two points; the minimum over
  the last axis is the nearest-point distance from the first batch to the second, the minimum over the middle axis
  the one from the second batch to the first (by the distance's symmetry); each mean of row means is the mean of all
  entries; and the weighted sum of the two means is the loss.
-/
import proofs.«128262_j24215025614920_1_alg».proof.Proof.Gen.ReferenceIdeal.Read
import proofs.«128262_j24215025614920_1_alg».proof.Proof.Spec
import proofs.«128262_j24215025614920_1_alg».proof.Proof.LibMinReduce

noncomputable section

namespace Cert.ReferenceIdeal.RefValue

open Idealize.ShloMosaic Idealize.ShloMosaic.ValueIdx Cert.ReferenceIdeal Cert.ReferenceIdeal.Read

open Cert.Chamfer

/-! ## The indices the layout operations read at, by coordinates -/

theorem idx_v1_ix (b : Fin 8) (n : Fin 4096) (k : Fin 3) : idx_main_v1 (ix2 b n) k = ix3 b n k :=
  funext fun a => Fin.ext (by match a with | ⟨0, _⟩ => rfl | ⟨1, _⟩ => rfl | ⟨2, _⟩ => rfl)

theorem idx_v3_ix (b : Fin 8) (m : Fin 4096) (k : Fin 3) : idx_main_v3 (ix2 b m) k = ix3 b m k :=
  funext fun a => Fin.ext (by match a with | ⟨0, _⟩ => rfl | ⟨1, _⟩ => rfl | ⟨2, _⟩ => rfl)

theorem lidx_v4_ix (b : Fin 8) (n m : Fin 4096) (k : Fin 3) : lidx_main_v4 (ix3 b n m) k = ix3 b n k :=
  funext fun a => Fin.ext (by match a with | ⟨0, _⟩ => rfl | ⟨1, _⟩ => rfl | ⟨2, _⟩ => rfl)

theorem ridx_v4_ix (b : Fin 8) (n m : Fin 4096) (k : Fin 3) : ridx_main_v4 (ix3 b n m) k = ix3 b m k :=
  funext fun a => Fin.ext (by match a with | ⟨0, _⟩ => rfl | ⟨1, _⟩ => rfl | ⟨2, _⟩ => rfl)

theorem idx_v5_v7_ix (b : Fin 8) (n m : Fin 4096) : idx_main_v5 (idx_main_v7 (ix3 b n m)) = ix2 b n :=
  funext fun a => Fin.ext (by match a with | ⟨0, _⟩ => rfl | ⟨1, _⟩ => rfl)

theorem idx_v6_v8_ix (b : Fin 8) (n m : Fin 4096) : idx_main_v6 (idx_main_v8 (ix3 b n m)) = ix2 b m :=
  funext fun a => Fin.ext (by match a with | ⟨0, _⟩ => rfl | ⟨1, _⟩ => rfl)

/-! ## The distance of two points -/

/-- The first batch's row sum of squares is the squared length of the point. -/
theorem v1_eq (x0 : Cloud 8 4096) (b : Fin 8) (n : Fin 4096) :
    val_main_v1 (F := Ideal) x0 (ix2 b n) = sq x0 b n := by
  rw [val_main_v1_apply, Fin.sum_univ_three, val_main_v0_apply, val_main_v0_apply, val_main_v0_apply,
    val_main_cst_apply, idx_v1_ix, idx_v1_ix, idx_v1_ix]
  simp only [Ideal.mulf_def, Ideal.ofBits_def, Ideal.ofBits_zero_f32, zero_add]
  rfl

/-- The second batch's row sum of squares likewise. -/
theorem v3_eq (x1 : Cloud 8 4096) (b : Fin 8) (m : Fin 4096) :
    val_main_v3 (F := Ideal) x1 (ix2 b m) = sq x1 b m := by
  rw [val_main_v3_apply, Fin.sum_univ_three, val_main_v2_apply, val_main_v2_apply, val_main_v2_apply,
    val_main_cst_0_apply, idx_v3_ix, idx_v3_ix, idx_v3_ix]
  simp only [Ideal.mulf_def, Ideal.ofBits_def, Ideal.ofBits_zero_f32, zero_add]
  rfl

/-- The contraction over the three coordinates is the inner product of the two points. -/
theorem v4_eq (x0 x1 : Cloud 8 4096) (b : Fin 8) (n m : Fin 4096) :
    val_main_v4 (F := Ideal) x0 x1 (ix3 b n m) = cross x0 x1 b n m := by
  rw [val_main_v4_apply, Fin.sum_univ_three, lidx_v4_ix, lidx_v4_ix, lidx_v4_ix, ridx_v4_ix, ridx_v4_ix, ridx_v4_ix]
  rfl

/-- The first squared length, broadcast along the second batch's points. -/
theorem v7_eq (x0 : Cloud 8 4096) (b : Fin 8) (n m : Fin 4096) :
    val_main_v7 (F := Ideal) x0 (ix3 b n m) = sq x0 b n := by
  rw [val_main_v7_apply, val_main_v5_apply, idx_v5_v7_ix, v1_eq]

/-- The second squared length, broadcast along the first batch's points. -/
theorem v8_eq (x1 : Cloud 8 4096) (b : Fin 8) (n m : Fin 4096) :
    val_main_v8 (F := Ideal) x1 (ix3 b n m) = sq x1 b m := by
  rw [val_main_v8_apply, val_main_v6_apply, idx_v6_v8_ix, v3_eq]

/-- The clamped square root of the Gram combination is the distance. -/
theorem v15_eq (x0 x1 : Cloud 8 4096) (b : Fin 8) (n m : Fin 4096) :
    val_main_v15 (F := Ideal) x0 x1 (ix3 b n m) = dist x0 x1 b n m := by
  rw [val_main_v15_apply, val_main_v14_apply, val_main_v12_apply, val_main_v9_apply, val_main_v11_apply,
    val_main_v10_apply, val_main_v13_apply, val_main_cst_1_apply, val_main_cst_2_apply, v7_eq, v8_eq, v4_eq]
  simp only [Ideal.mulf_def, Ideal.addf_def, Ideal.subf_def, Ideal.maximumf_def, Ideal.hostUnary_sqrt_def,
    Ideal.ofBits_def]
  rfl

/-! ## The nearest-point distances -/

/-- The minimum over the last axis: from a point of the first batch to the second batch's cloud. -/
theorem v16_eq (x0 x1 : Cloud 8 4096) (b : Fin 8) (n : Fin 4096) :
    val_main_v16 (F := Ideal) x0 x1 (ix2 b n) = near x0 x1 b n := by
  unfold val_main_v16
  rw [hostReduce_min_last_apply (val_main_v15 (F := Ideal) x0 x1) (val_main_cst_3 (F := Ideal))
    Gen.reducesTo_S8x4096x4096_S8x4096_d2 (by decide) Gen.h_S_ b n, val_main_cst_3_apply, Ideal.ofBits_def]
  unfold near
  exact Finset.fold_congr fun m _ => v15_eq x0 x1 b n m

/-- The minimum over the middle axis: from a point of the second batch to the first batch's cloud. -/
theorem v20_eq (x0 x1 : Cloud 8 4096) (b : Fin 8) (m : Fin 4096) :
    val_main_v20 (F := Ideal) x0 x1 (ix2 b m) = near x1 x0 b m := by
  unfold val_main_v20
  rw [hostReduce_min_mid_apply (val_main_v15 (F := Ideal) x0 x1) (val_main_cst_6 (F := Ideal))
    Gen.reducesTo_S8x4096x4096_S8x4096_d1 (by decide) Gen.h_S_ b m, val_main_cst_6_apply, Ideal.ofBits_def]
  unfold near
  exact Finset.fold_congr fun n _ => (v15_eq x0 x1 b n m).trans (dist_swap x0 x1 b n m)

/-! ## The two means -/

/-- The nearest-point array at an index given by coordinates. -/
theorem nearArr_ix (x y : Cloud 8 4096) (a : Fin 8) (k : Fin 4096) : nearArr x y (ix2 a k) = near x y a k := rfl

/-- One cloud's sum of the first direction's nearest-point distances. -/
theorem v17_sum (x0 x1 : Cloud 8 4096) (j : (⟨1, ![8]⟩ : Shape).Idx) :
    ∑ k : Fin 4096, val_main_v16 (F := Ideal) x0 x1 (idx_main_v17 j k)
      = ∑ k : Fin 4096, nearArr x0 x1 (ix2 (j 0) k) :=
  Finset.sum_congr rfl fun k _ => by
    have e : idx_main_v17 j k = (ix2 (j 0) k : (⟨2, ![8, 4096]⟩ : Shape).Idx) :=
      funext fun a => Fin.ext (by match a with | ⟨0, _⟩ => rfl | ⟨1, _⟩ => rfl)
    rw [e]
    exact (v16_eq x0 x1 (j 0) k).trans (nearArr_ix x0 x1 (j 0) k).symm

/-- One cloud's sum of the second direction's nearest-point distances. -/
theorem v21_sum (x0 x1 : Cloud 8 4096) (j : (⟨1, ![8]⟩ : Shape).Idx) :
    ∑ k : Fin 4096, val_main_v20 (F := Ideal) x0 x1 (idx_main_v21 j k)
      = ∑ k : Fin 4096, nearArr x1 x0 (ix2 (j 0) k) :=
  Finset.sum_congr rfl fun k _ => by
    have e : idx_main_v21 j k = (ix2 (j 0) k : (⟨2, ![8, 4096]⟩ : Shape).Idx) :=
      funext fun a => Fin.ext (by match a with | ⟨0, _⟩ => rfl | ⟨1, _⟩ => rfl)
    rw [e]
    exact (v20_eq x0 x1 (j 0) k).trans (nearArr_ix x1 x0 (j 0) k).symm

/-- A cloud's mean of the first direction's nearest-point distances. -/
theorem v19_eq (x0 x1 : Cloud 8 4096) (j : (⟨1, ![8]⟩ : Shape).Idx) :
    val_main_v19 (F := Ideal) x0 x1 j
      = Ideal.div (Ideal.ofBits .f32 0x00000000#32 + ∑ k : Fin 4096, nearArr x0 x1 (ix2 (j 0) k))
          (Ideal.ofBits .f32 0x45800000#32) := by
  rw [val_main_v19_apply, val_main_v17_apply, val_main_v18_apply, val_main_cst_5_apply, val_main_cst_4_apply,
    v17_sum]
  rfl

/-- A cloud's mean of the second direction's nearest-point distances. -/
theorem v23_eq (x0 x1 : Cloud 8 4096) (j : (⟨1, ![8]⟩ : Shape).Idx) :
    val_main_v23 (F := Ideal) x0 x1 j
      = Ideal.div (Ideal.ofBits .f32 0x00000000#32 + ∑ k : Fin 4096, nearArr x1 x0 (ix2 (j 0) k))
          (Ideal.ofBits .f32 0x45800000#32) := by
  rw [val_main_v23_apply, val_main_v21_apply, val_main_v22_apply, val_main_cst_8_apply, val_main_cst_7_apply,
    v21_sum]
  rfl

/-- The mean over the clouds of the first direction's means is the mean of all its entries. -/
theorem v25_eq (x0 x1 : Cloud 8 4096) (i : S_.Idx) :
    val_main_v25 (F := Ideal) x0 x1 i = meanAll (nearArr x0 x1) := by
  rw [val_main_v25_apply, val_main_v24_apply, val_main_cst_10_apply, val_main_cst_9_apply]
  simp only [Ideal.hostDivf_def, Ideal.ofBits_def]
  rw [← mean_rows (nearArr x0 x1)]
  exact congrArg (fun s => Ideal.div (_ + s) _) (Finset.sum_congr rfl fun j _ => v19_eq x0 x1 j)

/-- The same for the second direction. -/
theorem v27_eq (x0 x1 : Cloud 8 4096) (i : S_.Idx) :
    val_main_v27 (F := Ideal) x0 x1 i = meanAll (nearArr x1 x0) := by
  rw [val_main_v27_apply, val_main_v26_apply, val_main_cst_12_apply, val_main_cst_11_apply]
  simp only [Ideal.hostDivf_def, Ideal.ofBits_def]
  rw [← mean_rows (nearArr x1 x0)]
  exact congrArg (fun s => Ideal.div (_ + s) _) (Finset.sum_congr rfl fun j _ => v23_eq x0 x1 j)

/-! ## The loss -/

/-- The reference's result is the loss. -/
theorem ref_eq (x0 x1 : Cert.Chamfer.Cloud 8 4096) (i : Cert.ReferenceIdeal.S_.Idx) :
    Cert.ReferenceIdeal.Read.val_main_v29 (F := Ideal) x0 x1 i = Cert.Chamfer.loss x0 x1 := by
  rw [val_main_v29_apply, val_main_v28_apply, val_main_cst_13_apply, v25_eq, v27_eq]
  simp only [Ideal.mulf_def, Ideal.addf_def, Ideal.ofBits_def]
  rfl

end Cert.ReferenceIdeal.RefValue

end
-- ==== Proof.Payload.lean ====
/-
  One grid point's arithmetic, read at an entry.

  The kernel body holds a block `p` of 512 points of the first batch (an `[8, 512, 3]` array) and a block `q` of 256
  points of the second (an `[8, 256, 3]` array). It takes the three coordinate columns of each block, forms the
  squared lengths and the inner products of all `512 × 256` pairs by broadcasting the columns against each other,
  turns them into clamped distances, takes for every point of `p` the least distance over the 256 points of `q`
  (started from +∞) and stores the minimum of that and of what the output block held before. At row `r` of cloud
  `b` this is `min (old (b, r)) (min_{c < 256} dist p q b r c)`.
-/
import proofs.«128262_j24215025614920_1_alg».proof.Proof.Gen.KernelIdeal.Skeleton
import proofs.«128262_j24215025614920_1_alg».proof.Proof.Spec
import proofs.«128262_j24215025614920_1_alg».proof.Proof.LibMinReduce
import Idealize.ShloMosaic.Lib.Pipeline.Value
import Idealize.ShloMosaic.Lib.ValueIdx

noncomputable section

namespace Cert.KernelIdeal.Tile

open Idealize.ShloMosaic Idealize.ShloMosaic.ValueIdx Cert.KernelIdeal Cert.KernelIdeal.Gen

/-! ## The layout operations of the body, at coordinates -/

section Layout
variable {α : Type}

/-- Coordinate column `d` of an `[8, N, 3]` block, sliced out and flattened to an `[8, N]` matrix: entry `(b, n)`
    is coordinate `d` of point `n` of cloud `b`. -/
theorem column_apply {N : ℕ} (v : (⟨3, ![8, N, 3]⟩ : Shape).Idx → α) (d : Fin 3) (off : Fin 3 → ℕ)
    (hoff : off = ![0, 0, d.val]) (hs : (⟨3, ![8, N, 3]⟩ : Shape).Slices off ⟨3, ![8, N, 1]⟩)
    (hc : (⟨3, ![8, N, 1]⟩ : Shape).ShapeCasts ⟨2, ![8, N]⟩) (b : Fin 8) (n : Fin N) :
    shapeCast ⟨2, ![8, N]⟩ (extractStridedSlice ⟨3, ![8, N, 1]⟩ off v hs) hc (ix2 b n) = v (ix3 b n d) := by
  subst hoff
  rw [shapeCast_apply _ hc (ix2 b n) (ix3 b n (0 : Fin 1))
    (by rw [Shape.rowMajor_val_three, Shape.rowMajor_val_two]
        show (b.val * N + n.val) * 1 + 0 = b.val * N + n.val
        simp)]
  exact extractStridedSlice_apply _ v hs (ix3 b n (0 : Fin 1)) (ix3 b n d) fun a => by
    match a with
    | ⟨0, _⟩ => simp
    | ⟨1, _⟩ => simp
    | ⟨2, _⟩ => simp

/-- An `[8, N]` matrix given a trailing unit axis: entry `(b, n, 0)` is entry `(b, n)`. -/
theorem addLast_apply {N : ℕ} (v : (⟨2, ![8, N]⟩ : Shape).Idx → α)
    (hc : (⟨2, ![8, N]⟩ : Shape).ShapeCasts ⟨3, ![8, N, 1]⟩) (b : Fin 8) (n : Fin N) :
    shapeCast ⟨3, ![8, N, 1]⟩ v hc (ix3 b n (0 : Fin 1)) = v (ix2 b n) :=
  shapeCast_apply v hc (ix3 b n (0 : Fin 1)) (ix2 b n)
    (by rw [Shape.rowMajor_val_three, Shape.rowMajor_val_two]
        show b.val * N + n.val = (b.val * N + n.val) * 1 + 0
        simp)

/-- An `[8, M]` matrix given a middle unit axis: entry `(b, 0, m)` is entry `(b, m)`. -/
theorem addMid_apply {M : ℕ} (v : (⟨2, ![8, M]⟩ : Shape).Idx → α)
    (hc : (⟨2, ![8, M]⟩ : Shape).ShapeCasts ⟨3, ![8, 1, M]⟩) (b : Fin 8) (m : Fin M) :
    shapeCast ⟨3, ![8, 1, M]⟩ v hc (ix3 b (0 : Fin 1) m) = v (ix2 b m) :=
  shapeCast_apply v hc (ix3 b (0 : Fin 1) m) (ix2 b m)
    (by rw [Shape.rowMajor_val_three, Shape.rowMajor_val_two]
        show b.val * M + m.val = (b.val * 1 + 0) * M + m.val
        simp)

/-- An `[8, 512, 1]` column broadcast along the last axis: entry `(b, n, m)` is entry `(b, n, 0)`. -/
theorem bcastLast_apply (v : (⟨3, ![8, 512, 1]⟩ : Shape).Idx → α)
    (h : (⟨3, ![8, 512, 1]⟩ : Shape).Broadcasts ⟨3, ![8, 512, 256]⟩) (b : Fin 8) (n : Fin 512) (m : Fin 256) :
    broadcastTo ⟨3, ![8, 512, 256]⟩ v h (ix3 b n m) = v (ix3 b n (0 : Fin 1)) :=
  broadcastTo_apply v h (ix3 b n m) (ix3 b n (0 : Fin 1)) fun a => by
    match a with
    | ⟨0, _⟩ => simp
    | ⟨1, _⟩ => simp
    | ⟨2, _⟩ => simp

/-- An `[8, 1, 256]` row broadcast along the middle axis: entry `(b, n, m)` is entry `(b, 0, m)`. -/
theorem bcastMid_apply (v : (⟨3, ![8, 1, 256]⟩ : Shape).Idx → α)
    (h : (⟨3, ![8, 1, 256]⟩ : Shape).Broadcasts ⟨3, ![8, 512, 256]⟩) (b : Fin 8) (n : Fin 512) (m : Fin 256) :
    broadcastTo ⟨3, ![8, 512, 256]⟩ v h (ix3 b n m) = v (ix3 b (0 : Fin 1) m) :=
  broadcastTo_apply v h (ix3 b n m) (ix3 b (0 : Fin 1) m) fun a => by
    match a with
    | ⟨0, _⟩ => simp
    | ⟨1, _⟩ => simp
    | ⟨2, _⟩ => simp

end Layout

/-! ## The body's values at an entry -/

section Body
variable (p : Vec Ideal S8x512x3 .f32) (q : Vec Ideal S8x256x3 .f32) (b : Fin 8) (r : Fin 512) (c : Fin 256)

theorem colP0 : k0_pay3 p (ix2 b r) = p (ix3 b r 0) := column_apply p 0 _ rfl _ _ b r
theorem colP1 : k0_pay4 p (ix2 b r) = p (ix3 b r 1) := column_apply p 1 _ rfl _ _ b r
theorem colP2 : k0_pay5 p (ix2 b r) = p (ix3 b r 2) := column_apply p 2 _ rfl _ _ b r
theorem colQ0 : k0_pay6 q (ix2 b c) = q (ix3 b c 0) := column_apply q 0 _ rfl _ _ b c
theorem colQ1 : k0_pay7 q (ix2 b c) = q (ix3 b c 1) := column_apply q 1 _ rfl _ _ b c
theorem colQ2 : k0_pay8 q (ix2 b c) = q (ix3 b c 2) := column_apply q 2 _ rfl _ _ b c

/-- The broadcast products, summed: the inner product of point `r` of `p` with point `c` of `q`. -/
theorem cross_apply : k0_pay9 p q (ix3 b r c) = Cert.Chamfer.cross p q b r c := by
  unfold k0_pay9
  simp only [addf_apply, mulf_apply, bcastLast_apply, bcastMid_apply, addLast_apply, addMid_apply,
    colP0, colP1, colP2, colQ0, colQ1, colQ2]
  rfl

/-- The broadcast squared lengths, added. -/
theorem sqsum_apply : k0_pay10 p q (ix3 b r c) = Cert.Chamfer.sq p b r + Cert.Chamfer.sq q b c := by
  unfold k0_pay10
  simp only [addf_apply, mulf_apply, bcastLast_apply, bcastMid_apply, addLast_apply, addMid_apply,
    colP0, colP1, colP2, colQ0, colQ1, colQ2]
  rfl

/-- The clamped distance of the pair `(r, c)`. -/
theorem dist_apply :
    sqrt (maximumf (subf (k0_pay10 p q) (mulf (broadcast S8x512x256 (FloatOps.ofBits .f32 0x40000000#32)) (k0_pay9 p q)))
      (broadcast S8x512x256 (FloatOps.ofBits .f32 0x00000000#32))) (ix3 b r c) = Cert.Chamfer.dist p q b r c := by
  show FloatOps.sqrt (maximumf (subf (k0_pay10 p q) (mulf (broadcast S8x512x256 (FloatOps.ofBits .f32 0x40000000#32))
    (k0_pay9 p q))) (broadcast S8x512x256 (FloatOps.ofBits .f32 0x00000000#32)) (ix3 b r c)) = _
  rw [maximumf_apply, subf_apply, mulf_apply, broadcast_apply, broadcast_apply, sqsum_apply, cross_apply]
  rfl

/-- The stored block at `(b, r)`: the minimum of what the output block held and of the least distance from point
    `r` of `p` to the 256 points of `q`. -/
theorem tile_min (old : Vec Ideal S8x512 .f32) :
    k0_pay1 (k0_pay9 p q) (k0_pay10 p q) old (ix2 b r)
      = min (old (ix2 b r)) ((Finset.univ : Finset (Fin 256)).fold min (Ideal.ofBits .f32 0x7F800000#32)
          fun c => Cert.Chamfer.dist p q b r c) := by
  unfold k0_pay1
  simp only [minimumf_apply, shapeCast_self]
  refine congrArg (min _) ((multiReduction_minimumf_single _ _ _ _ _ (ix2 b r)).trans ?_)
  refine Finset.fold_congr fun c _ => ?_
  have hi : reduces_S8x512x256_S8x512.lift (ix2 b r) c = ix3 b r c := funext fun ax => Fin.ext (by
    match ax with
    | ⟨0, _⟩ => rfl
    | ⟨1, _⟩ => rfl
    | ⟨2, _⟩ => rfl)
  exact (congrArg _ hi).trans (dist_apply p q b r c)

end Body

/-! ## One grid point's store, named; the second call runs the same body -/

section Named
variable {F : FTy → Type} [FloatOps F]

/-- What a grid point stores: from the two blocks and the output block's previous contents. -/
abbrev step (p : Vec F S8x512x3 .f32) (q : Vec F S8x256x3 .f32) (old : Vec F S8x512 .f32) : FVec F S8x512 .f32 :=
  k0_pay1 (k0_pay9 p q) (k0_pay10 p q) old

/-- What the first point of a row of the grid stores before anything else: +∞ everywhere. -/
abbrev reset : FVec F S8x512 .f32 := k0_pay2

theorem step_second (p : Vec F S8x512x3 .f32) (q : Vec F S8x256x3 .f32) (old : Vec F S8x512 .f32) :
    k1_pay1 (k1_pay9 p q) (k1_pay10 p q) old = step p q old := rfl
theorem reset_second : k1_pay2 (F := F) = reset := rfl

end Named

theorem step_apply (p : Vec Ideal S8x512x3 .f32) (q : Vec Ideal S8x256x3 .f32) (old : Vec Ideal S8x512 .f32)
    (b : Fin 8) (r : Fin 512) :
    step p q old (ix2 b r)
      = min (old (ix2 b r)) ((Finset.univ : Finset (Fin 256)).fold min (Ideal.ofBits .f32 0x7F800000#32)
          fun c => Cert.Chamfer.dist p q b r c) :=
  tile_min p q b r old

theorem reset_apply (j : S8x512.Idx) : reset (F := Ideal) j = Ideal.ofBits .f32 0x7F800000#32 :=
  Ideal.ofBits_def _

end Cert.KernelIdeal.Tile

end
-- ==== Proof.LibTileFold.lean ====
import Mathlib.Data.Finset.Fold
import Mathlib.Data.Fintype.Basic
import Mathlib.Order.Basic
import Mathlib.Order.MinMax
import Mathlib.Tactic.Ring

/-!
# A maximum (minimum) folded tile by tile

Let `N = a * n` entries `f 0, …, f (N - 1)` of a linear order be cut into `a` consecutive tiles
of `n` entries each: tile `q` holds the entries `f (q * n + c)`, `c < n`.  Fix a start value `b`.

Write `T q = max b (f (q * n)) … (f (q * n + n - 1))` for the maximum of tile `q` taken from `b`.
A running maximum `M 0 = max b (T 0)`, `M (q + 1) = max (M q) (T (q + 1))` then ends, after the
last tile, at the maximum from `b` of all `N` entries:

  `M (a - 1) = max b (f 0) … (f (N - 1))`.

The proof compares upper bounds.  An element `z` bounds `M q` from above exactly when it bounds
`b` and every entry of the tiles `0, …, q`; it bounds the whole maximum exactly when it bounds `b`
and every entry.  Every index `j < a * n` is `(j / n) * n + j % n` with `j / n < a` and `j % n < n`,
so the entries of the tiles `0, …, a - 1` are all the entries, the two sets of upper bounds agree,
and two elements of a partial order with the same upper bounds are equal.  (If `n = 0` there is no
entry at all and both sides are `b`; the argument covers this case without a separate branch.)

The statement for a running minimum is the order dual, proved the same way with lower bounds.
-/

namespace Cert.LibTileFold

/-- Entry `c` of tile `q` (of `a` tiles of `n` entries) has a position `q * n + c` below
    `N = a * n`. -/
theorem tile_index_lt {a n N q : ℕ} (hN : a * n = N) (hq : q < a) (c : Fin n) :
    q * n + c.val < N :=
  calc q * n + c.val < q * n + n := Nat.add_lt_add_left c.isLt _
    _ = (q + 1) * n := (Nat.succ_mul q n).symm
    _ ≤ a * n := Nat.mul_le_mul_right _ hq
    _ = N := hN

/-- A property holds at every position below `N = a * n` exactly when it holds at every entry of
    every one of the `a` tiles of `n` entries: position `j` is entry `j % n` of tile `j / n`. -/
theorem forall_fin_iff_forall_tiles {a n N : ℕ} (hN : a * n = N) (P : Fin N → Prop) :
    (∀ j : Fin N, P j) ↔
      ∀ (q : ℕ) (hq : q < a) (c : Fin n), P ⟨q * n + c.val, tile_index_lt hN hq c⟩ := by
  constructor
  · intro h q hq c
    exact h _
  · intro h j
    -- a position exists, so the tiles are not empty
    have hn : 0 < n := by
      rcases Nat.eq_zero_or_pos n with hn0 | hn
      · exfalso
        have hj : j.val < a * n := Nat.lt_of_lt_of_eq j.isLt hN.symm
        rw [hn0, Nat.mul_zero] at hj
        exact Nat.not_lt_zero _ hj
      · exact hn
    have hq : j.val / n < a :=
      Nat.div_lt_of_lt_mul (Nat.lt_of_lt_of_eq j.isLt (hN.symm.trans (Nat.mul_comm a n)))
    have hP := h (j.val / n) hq ⟨j.val % n, Nat.mod_lt _ hn⟩
    have transport : ∀ k : Fin N, k = j → P k → P j := fun k hk hp => hk ▸ hp
    exact transport _ (Fin.ext (Nat.div_add_mod' j.val n)) hP

/-- Upper bounds of a running maximum: `z` bounds `M q` exactly when it bounds the start value
    `b` and every entry of the tiles `0, …, q`. -/
theorem running_max_le_iff {α : Type*} [LinearOrder α] (b : α) {a n : ℕ} (g : ℕ → Fin n → α)
    (M : ℕ → α) (h0 : M 0 = max b ((Finset.univ : Finset (Fin n)).fold max b (g 0)))
    (hs : ∀ q, q + 1 < a →
      M (q + 1) = max (M q) ((Finset.univ : Finset (Fin n)).fold max b (g (q + 1))))
    (z : α) :
    ∀ q, q < a → (M q ≤ z ↔ b ≤ z ∧ ∀ q', q' ≤ q → ∀ c, g q' c ≤ z) := by
  intro q
  induction q with
  | zero =>
    intro _
    rw [h0, max_le_iff, Finset.fold_max_le]
    constructor
    · rintro ⟨hb, -, hc⟩
      refine ⟨hb, fun q' hq' c => ?_⟩
      obtain rfl : q' = 0 := Nat.le_zero.mp hq'
      exact hc c (Finset.mem_univ c)
    · rintro ⟨hb, hc⟩
      exact ⟨hb, hb, fun c _ => hc 0 (Nat.le_refl 0) c⟩
  | succ q ih =>
    intro hq
    rw [hs q hq, max_le_iff, Finset.fold_max_le, ih (Nat.lt_of_succ_lt hq)]
    constructor
    · rintro ⟨⟨hb, hc⟩, -, hc'⟩
      refine ⟨hb, fun q' hq' c => ?_⟩
      rcases Nat.lt_or_eq_of_le hq' with hlt | rfl
      · exact hc q' (Nat.le_of_lt_succ hlt) c
      · exact hc' c (Finset.mem_univ c)
    · rintro ⟨hb, hc⟩
      exact ⟨⟨hb, fun q' hq' c => hc q' (Nat.le_succ_of_le hq') c⟩, hb,
        fun c _ => hc (q + 1) (Nat.le_refl _) c⟩

/-- Lower bounds of a running minimum: `z` bounds `M q` from below exactly when it bounds the
    start value `b` and every entry of the tiles `0, …, q` from below. -/
theorem le_running_min_iff {α : Type*} [LinearOrder α] (b : α) {a n : ℕ} (g : ℕ → Fin n → α)
    (M : ℕ → α) (h0 : M 0 = min b ((Finset.univ : Finset (Fin n)).fold min b (g 0)))
    (hs : ∀ q, q + 1 < a →
      M (q + 1) = min (M q) ((Finset.univ : Finset (Fin n)).fold min b (g (q + 1))))
    (z : α) :
    ∀ q, q < a → (z ≤ M q ↔ z ≤ b ∧ ∀ q', q' ≤ q → ∀ c, z ≤ g q' c) := by
  intro q
  induction q with
  | zero =>
    intro _
    rw [h0, le_min_iff, Finset.le_fold_min]
    constructor
    · rintro ⟨hb, -, hc⟩
      refine ⟨hb, fun q' hq' c => ?_⟩
      obtain rfl : q' = 0 := Nat.le_zero.mp hq'
      exact hc c (Finset.mem_univ c)
    · rintro ⟨hb, hc⟩
      exact ⟨hb, hb, fun c _ => hc 0 (Nat.le_refl 0) c⟩
  | succ q ih =>
    intro hq
    rw [hs q hq, le_min_iff, Finset.le_fold_min, ih (Nat.lt_of_succ_lt hq)]
    constructor
    · rintro ⟨⟨hb, hc⟩, -, hc'⟩
      refine ⟨hb, fun q' hq' c => ?_⟩
      rcases Nat.lt_or_eq_of_le hq' with hlt | rfl
      · exact hc q' (Nat.le_of_lt_succ hlt) c
      · exact hc' c (Finset.mem_univ c)
    · rintro ⟨hb, hc⟩
      exact ⟨⟨hb, fun q' hq' c => hc q' (Nat.le_succ_of_le hq') c⟩, hb,
        fun c _ => hc (q + 1) (Nat.le_refl _) c⟩

/-- A running maximum over `a` tiles of `n` entries each — started as
    `max b (first tile's maximum from b)`, each later step
    `max (previous) (that tile's maximum from b)` — ends at the maximum from `b` of all
    `N = a * n` entries. -/
theorem fold_max_tiles {α : Type*} [LinearOrder α] (b : α) {a n N : ℕ} (hN : a * n = N) (ha : 0 < a)
    (f : Fin N → α) (g : ℕ → Fin n → α)
    (hg : ∀ (q : ℕ) (hq : q < a) (c : Fin n), g q c = f ⟨q * n + c.val, by
      calc q * n + c.val < q * n + n := Nat.add_lt_add_left c.isLt _
        _ = (q + 1) * n := by ring
        _ ≤ a * n := Nat.mul_le_mul_right _ hq
        _ = N := hN⟩)
    (M : ℕ → α) (h0 : M 0 = max b ((Finset.univ : Finset (Fin n)).fold max b (g 0)))
    (hs : ∀ q, q + 1 < a →
      M (q + 1) = max (M q) ((Finset.univ : Finset (Fin n)).fold max b (g (q + 1)))) :
    M (a - 1) = (Finset.univ : Finset (Fin N)).fold max b f := by
  -- equal because they have the same upper bounds
  refine eq_of_forall_ge_iff fun z => ?_
  rw [running_max_le_iff b g M h0 hs z (a - 1) (Nat.sub_lt ha Nat.one_pos), Finset.fold_max_le]
  refine and_congr_right fun _ => ?_
  have huniv : (∀ x ∈ (Finset.univ : Finset (Fin N)), f x ≤ z) ↔ ∀ x : Fin N, f x ≤ z :=
    ⟨fun h x => h x (Finset.mem_univ x), fun h x _ => h x⟩
  rw [huniv, forall_fin_iff_forall_tiles hN (fun j => f j ≤ z)]
  constructor
  · intro h q hq c
    have hgq := hg q hq c
    have hle := h q (Nat.le_sub_one_of_lt hq) c
    rw [hgq] at hle
    exact hle
  · intro h q hq c
    have hqa : q < a := Nat.lt_of_le_of_lt hq (Nat.sub_lt ha Nat.one_pos)
    rw [hg q hqa c]
    exact h q hqa c

/-- The same for a running minimum: a running minimum over `a` tiles of `n` entries each — started
    as `min b (first tile's minimum from b)`, each later step
    `min (previous) (that tile's minimum from b)` — ends at the minimum from `b` of all
    `N = a * n` entries. -/
theorem fold_min_tiles {α : Type*} [LinearOrder α] (b : α) {a n N : ℕ} (hN : a * n = N) (ha : 0 < a)
    (f : Fin N → α) (g : ℕ → Fin n → α)
    (hg : ∀ (q : ℕ) (hq : q < a) (c : Fin n), g q c = f ⟨q * n + c.val, by
      calc q * n + c.val < q * n + n := Nat.add_lt_add_left c.isLt _
        _ = (q + 1) * n := by ring
        _ ≤ a * n := Nat.mul_le_mul_right _ hq
        _ = N := hN⟩)
    (M : ℕ → α) (h0 : M 0 = min b ((Finset.univ : Finset (Fin n)).fold min b (g 0)))
    (hs : ∀ q, q + 1 < a →
      M (q + 1) = min (M q) ((Finset.univ : Finset (Fin n)).fold min b (g (q + 1)))) :
    M (a - 1) = (Finset.univ : Finset (Fin N)).fold min b f := by
  -- equal because they have the same lower bounds
  refine eq_of_forall_le_iff fun z => ?_
  rw [le_running_min_iff b g M h0 hs z (a - 1) (Nat.sub_lt ha Nat.one_pos), Finset.le_fold_min]
  refine and_congr_right fun _ => ?_
  have huniv : (∀ x ∈ (Finset.univ : Finset (Fin N)), z ≤ f x) ↔ ∀ x : Fin N, z ≤ f x :=
    ⟨fun h x => h x (Finset.mem_univ x), fun h x _ => h x⟩
  rw [huniv, forall_fin_iff_forall_tiles hN (fun j => z ≤ f j)]
  constructor
  · intro h q hq c
    have hgq := hg q hq c
    have hle := h q (Nat.le_sub_one_of_lt hq) c
    rw [hgq] at hle
    exact hle
  · intro h q hq c
    have hqa : q < a := Nat.lt_of_le_of_lt hq (Nat.sub_lt ha Nat.one_pos)
    rw [hg q hqa c]
    exact h q hqa c

end Cert.LibTileFold
-- ==== Proof.Region0.lean ====
/-
  The first call's result array.

  The call runs over a grid of 8 × 16 points; point `t` works on the block of 512 points `512 (t / 16) …` of the
  call's first operand and on the block of 256 points `256 (t % 16) …` of its second operand, and its output block,
  the 512 nearest-point distances of row block `t / 16`, stays in place along a row of the grid: the first point of a row
  (`t % 16 = 0`) stores +∞ and then the minimum of that and of its tile's least distances, every later point the
  minimum of what the block held and of its own tile's; only after the last point of the row (`t % 16 = 15`) is the
  block written back. So after tile `j` the block holds, at `(b, r)`, the running minimum of the least distances of
  point `512 (t / 16) + r` of cloud `b` over the tiles `0 … j`, and a minimum taken tile by tile over 16 tiles of
  256 is the minimum over all 4096 points. The eight written-back blocks tile the `[8, 4096]` result array, which
  therefore ends holding the nearest-point distances `nearArr` from the points of the call's first operand to those of
  its second operand, both as the call finds them.
-/
import proofs.«128262_j24215025614920_1_alg».proof.Proof.Gen.KernelIdeal.Frame
import proofs.«128262_j24215025614920_1_alg».proof.Proof.Payload
import proofs.«128262_j24215025614920_1_alg».proof.Proof.LibTileFold
import Idealize.ShloMosaic.Lib.Pipeline.Value

noncomputable section

namespace Cert.KernelIdeal.Region0

open Idealize.ShloMosaic Idealize.ShloMosaic.TcCoe Idealize.ShloMosaic.ValueIdx Idealize.SL.Sem Idealize.ShloMosaic.Tactic
open Idealize.ShloMosaic.Pipeline (Dat)
open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point leaves in the output block

In both cases of the body's conditional the last store covers the whole block, so the block ends at that store's
value: one point's step applied to the two input blocks and to what the block held before the step — its previous
contents at a later point of a row, the +∞ block just stored at the first. -/

section Pieces
variable {F : FTy → Type} [FloatOps F]

/-- A later point of a row: the step over the block's previous contents. -/
theorem out_B (c : Dev nD) (i : grid0.Coords) (a2 : Memref sig .tc .vmem S8x512x3 .f32) (h2 : a2.IsWhole)
    (a3 : Memref sig .tc .vmem S8x256x3 .f32) (h3 : a3.IsWhole) (a4 : Memref sig .tc .vmem S8x512 .f32) (h4 : a4.IsWhole)
    (hc : ¬cond0_0 i) (p : Vec F S8x512x3 .f32) (q : Vec F S8x256x3 .f32) (old : Vec F S8x512 .f32) :
    out0_B_2 c i a2 h2 a3 h3 a4 h4 hc p q old = Tile.step p q old := by
  unfold out0_B_2
  rw [View.read_writes_eq_canon _ _ _ (cover0_B_2 c i a2 h2 a3 h3 a4 h4 hc p q old)]
  unfold kernelRun0_B
  dsimp only
  sl_unfold_words
  rw [View.canon_unit_zero hz2]
  simp only [View.readAt_eq_ld, h2.read_unread, h3.read_unread, h4.read_unread, View.ld_unit_zero (S := S8x512x3) hz3,
    View.ld_unit_zero (S := S8x256x3) hz3, View.ld_unit_zero (S := S8x512) hz2] <;> rfl

/-- The first point of a row: the step over the +∞ block it has just stored. -/
theorem out_A (c : Dev nD) (i : grid0.Coords) (a2 : Memref sig .tc .vmem S8x512x3 .f32) (h2 : a2.IsWhole)
    (a3 : Memref sig .tc .vmem S8x256x3 .f32) (h3 : a3.IsWhole) (a4 : Memref sig .tc .vmem S8x512 .f32) (h4 : a4.IsWhole)
    (hc : cond0_0 i) (p : Vec F S8x512x3 .f32) (q : Vec F S8x256x3 .f32) :
    out0_A_2 c i a2 h2 a3 h3 a4 h4 hc p q = Tile.step p q Tile.reset := by
  unfold out0_A_2
  rw [View.read_writes_eq_canon _ _ _ (cover0_A_2 c i a2 h2 a3 h3 a4 h4 hc p q)]
  unfold kernelRun0_A
  dsimp only
  sl_unfold_words
  rw [View.canon_cons_unit_zero (S := S8x512) hz2, View.readCov_unit_zero (S := S8x512) _ hz2]
  simp only [View.readAt_eq_ld, h2.read_unread, h3.read_unread, h4.read_unread, View.ld_unit_zero (S := S8x512x3) hz3,
    View.ld_unit_zero (S := S8x256x3) hz3, View.ld_unit_zero (S := S8x512) hz2] <;> rfl

end Pieces

/-! ## The input blocks are pieces of the argument arrays -/

variable (V : (c : Dev nD) → (b : Ref sig .tc) → Buf (Elt Ideal) ((c : Thread nD τ).loc b))

/-- The block of the call's first operand at grid point t, and of its second operand; the two operand arrays. -/
abbrev pblk (c : Dev nD) (t : Fin cfg0.N) : Vec Ideal S8x512x3 .f32 := iblk0 V c 0 t
abbrev qblk (c : Dev nD) (t : Fin cfg0.N) : Vec Ideal S8x256x3 .f32 := iblk0 V c 1 t
abbrev parr (c : Dev nD) : Cert.Chamfer.Cloud 8 4096 := V c main_arg0
abbrev qarr (c : Dev nD) : Cert.Chamfer.Cloud 8 4096 := V c main_arg1

/-- The three windows' block indices at grid point `t`. -/
theorem idx_facts : ∀ t : Fin cfg0.N, win0_0.index t (0 : Fin 3) = 0 ∧ win0_0.index t (1 : Fin 3) = t.val / 16
    ∧ win0_0.index t (2 : Fin 3) = 0 ∧ win0_1.index t (0 : Fin 3) = 0 ∧ win0_1.index t (1 : Fin 3) = t.val % 16
    ∧ win0_1.index t (2 : Fin 3) = 0 ∧ win0_2.index t (0 : Fin 2) = 0 ∧ win0_2.index t (1 : Fin 2) = t.val / 16 :=
  (by decide +kernel : ∀ t : Fin grid0.N, _)

/-- Row `r` of the first operand's block at `t` is point `512 (t / 16) + r`. -/
theorem pblk_apply (c : Dev nD) (t : Fin cfg0.N) (b : Fin 8) (r : Fin 512) (d : Fin 3) (n : Fin 4096)
    (hn : n.val = 512 * (t.val / 16) + r.val) : pblk V c t (ix3 b r d) = parr V c (ix3 b n d) := by
  obtain ⟨e0, e1, e2, -⟩ := idx_facts t
  unfold pblk iblk0
  rw [View.read_apply]
  show V c main_arg0 _ = V c main_arg0 _
  congr 1
  funext a
  apply Fin.ext
  match a with
  | ⟨0, _⟩ => show win0_0.index t (0 : Fin 3) * 8 + 1 * b.val = b.val; omega
  | ⟨1, _⟩ => show win0_0.index t (1 : Fin 3) * 512 + 1 * r.val = n.val; omega
  | ⟨2, _⟩ => show win0_0.index t (2 : Fin 3) * 3 + 1 * d.val = d.val; omega

/-- Row `s` of the second operand's block at `t` is point `256 (t % 16) + s`. -/
theorem qblk_apply (c : Dev nD) (t : Fin cfg0.N) (b : Fin 8) (s : Fin 256) (d : Fin 3) (k : Fin 4096)
    (hk : k.val = 256 * (t.val % 16) + s.val) : qblk V c t (ix3 b s d) = qarr V c (ix3 b k d) := by
  obtain ⟨-, -, -, e0, e1, e2, -⟩ := idx_facts t
  unfold qblk iblk0
  rw [View.read_apply]
  show V c main_arg1 _ = V c main_arg1 _
  congr 1
  funext a
  apply Fin.ext
  match a with
  | ⟨0, _⟩ => show win0_1.index t (0 : Fin 3) * 8 + 1 * b.val = b.val; omega
  | ⟨1, _⟩ => show win0_1.index t (1 : Fin 3) * 256 + 1 * s.val = k.val; omega
  | ⟨2, _⟩ => show win0_1.index t (2 : Fin 3) * 3 + 1 * d.val = d.val; omega

/-- The least distance from row r of the point block at t to the 256 points of the other block at t. -/
abbrev tileMin (c : Dev nD) (t : Fin cfg0.N) (b : Fin 8) (r : Fin 512) : EReal :=
  (Finset.univ : Finset (Fin 256)).fold min (Ideal.ofBits .f32 0x7F800000#32)
    fun s => Cert.Chamfer.dist (pblk V c t) (qblk V c t) b r s

/-- The first point of a row: the minimum of +∞ and of its tile's least distance. -/
theorem step_A (c : Dev nD) (t : Fin cfg0.N) (h0 : t.val % 16 = 0) (b : Fin 8) (r : Fin 512) :
    outsAt0 V c t.val t.isLt (ix2 b r) = min (Ideal.ofBits .f32 0x7F800000#32) (tileMin V c t b r) := by
  rw [outsAt0_A V c t h0]
  refine (congrFun (out_A (F := Ideal) c (grid0.coords t) (ms0_0 t) (hs0_0 t) (ms0_1 t) (hs0_1 t) (ms0_2 t) (hs0_2 t)
    ((hcond0_0 t).mpr h0) (pblk V c t) (qblk V c t)) (ix2 b r)).trans ?_
  refine (Tile.step_apply (pblk V c t) (qblk V c t) _ b r).trans ?_
  rw [Tile.reset_apply]

/-- A later point: the minimum of what the point before left and of its tile's least distance. -/
theorem step_B (c : Dev nD) (t : Fin cfg0.N) (h0 : ¬t.val % 16 = 0) (b : Fin 8) (r : Fin 512) :
    outsAt0 V c t.val t.isLt (ix2 b r)
      = min (outsAt0 V c (t.val - 1) (Nat.lt_of_le_of_lt (Nat.sub_le _ _) t.isLt) (ix2 b r)) (tileMin V c t b r) := by
  rw [outsAt0_B V c t h0]
  refine (congrFun (out_B (F := Ideal) c (grid0.coords t) (ms0_0 t) (hs0_0 t) (ms0_1 t) (hs0_1 t) (ms0_2 t) (hs0_2 t)
    (fun h => h0 ((hcond0_0 t).mp h)) (pblk V c t) (qblk V c t)
    (outsAt0 V c (t.val - 1) (Nat.lt_of_le_of_lt (Nat.sub_le _ _) t.isLt))) (ix2 b r)).trans ?_
  exact Tile.step_apply (pblk V c t) (qblk V c t) _ b r

/-! ## The running minimum along a row of the grid -/

theorem outsAt_congr (c : Dev nD) {n n' : ℕ} (e : n = n') (h : n < cfg0.N) (h' : n' < cfg0.N) :
    outsAt0 V c n h = outsAt0 V c n' h' := by
  subst e; rfl

/-- The distances from point n of cloud b of the first operand to the points of the second operand's cloud b. -/
def rowDist (c : Dev nD) (b : Fin 8) (n : Fin 4096) (m : Fin 4096) : EReal :=
  Cert.Chamfer.dist (parr V c) (qarr V c) b n m

/-- The same, cut into 16 tiles of 256 points: entry s of tile j is point 256 j + s. -/
def tileDist (c : Dev nD) (b : Fin 8) (n : Fin 4096) (j : ℕ) (s : Fin 256) : EReal :=
  if h : j * 256 + s.val < 4096 then rowDist V c b n ⟨j * 256 + s.val, h⟩ else Ideal.ofBits .f32 0x7F800000#32

/-- What the output block holds at (b, r) after tile j of row block nb of the grid. -/
def runMin (c : Dev nD) (nb : ℕ) (b : Fin 8) (r : Fin 512) (j : ℕ) : EReal :=
  if h : 16 * nb + j < cfg0.N then outsAt0 V c (16 * nb + j) h (ix2 b r) else Ideal.ofBits .f32 0x7F800000#32

/-- The block tile of point t is tile t % 16 of the row of distances of point 512 (t / 16) + r. -/
theorem tileMin_eq (c : Dev nD) (t : Fin cfg0.N) (b : Fin 8) (r : Fin 512) (n : Fin 4096) (nb j : ℕ)
    (ht : t.val = 16 * nb + j) (hj : j < 16) (hn : n.val = 512 * nb + r.val) :
    tileMin V c t b r = (Finset.univ : Finset (Fin 256)).fold min (Ideal.ofBits .f32 0x7F800000#32) (tileDist V c b n j) := by
  have hN : cfg0.N = 128 := N_0
  refine Finset.fold_congr fun s _ => ?_
  have hs : s.val < 256 := s.isLt
  have hlt : j * 256 + s.val < 4096 := by omega
  unfold tileDist
  rw [dif_pos hlt]
  unfold rowDist
  exact Cert.Chamfer.dist_congr _ _ _ _ b r s n ⟨j * 256 + s.val, hlt⟩
    (fun d => pblk_apply V c t b r d n (by rw [hn, ht]; omega))
    (fun d => qblk_apply V c t b s d ⟨j * 256 + s.val, hlt⟩ (by show j * 256 + s.val = _; rw [ht]; omega))

/-- After the last tile of row block nb the output block holds, at (b, r), the least distance from point
    512 nb + r to all 4096 points of the other cloud. -/
theorem row_done (c : Dev nD) (nb : ℕ) (hnb : nb < 8) (b : Fin 8) (r : Fin 512) (n : Fin 4096)
    (hn : n.val = 512 * nb + r.val) (hlt : 16 * nb + 15 < cfg0.N) :
    outsAt0 V c (16 * nb + 15) hlt (ix2 b r) = Cert.Chamfer.near (parr V c) (qarr V c) b n := by
  have hN : cfg0.N = 128 := N_0
  have key : runMin V c nb b r 15 = (Finset.univ : Finset (Fin 4096)).fold min (Ideal.ofBits .f32 0x7F800000#32)
      (rowDist V c b n) :=
    Cert.LibTileFold.fold_min_tiles (Ideal.ofBits .f32 0x7F800000#32) (a := 16) (n := 256) (N := 4096) rfl (by decide)
      (rowDist V c b n) (tileDist V c b n) (fun j hj s => dif_pos _) (runMin V c nb b r)
      (by
        have h0 : 16 * nb + 0 < cfg0.N := by omega
        unfold runMin
        rw [dif_pos h0]
        have hlt0 : 16 * nb < cfg0.N := by omega
        rw [outsAt_congr V c (Nat.add_zero _) h0 hlt0]
        rw [step_A V c ⟨16 * nb, hlt0⟩ (by show 16 * nb % 16 = 0; omega) b r,
          tileMin_eq V c ⟨16 * nb, hlt0⟩ b r n nb 0 rfl (by decide) hn])
      (fun j hj => by
        have h1 : 16 * nb + (j + 1) < cfg0.N := by omega
        have h2 : 16 * nb + j < cfg0.N := by omega
        unfold runMin
        rw [dif_pos h1, dif_pos h2]
        rw [step_B V c ⟨16 * nb + (j + 1), h1⟩ (by show ¬(16 * nb + (j + 1)) % 16 = 0; omega) b r,
          tileMin_eq V c ⟨16 * nb + (j + 1), h1⟩ b r n nb (j + 1) rfl hj hn]
        exact congrArg (min · _) (congrFun (outsAt_congr V c (by show 16 * nb + (j + 1) - 1 = 16 * nb + j; omega) _ h2) (ix2 b r)))
  have hM : runMin V c nb b r 15 = outsAt0 V c (16 * nb + 15) hlt (ix2 b r) := dif_pos hlt
  rw [← hM, key]
  rfl

/-! ## From the blocks to the array -/

/-- At the last tile of a row of the grid the output block holds the nearest-point distances of its 512 points. -/
theorem last_apply (c : Dev nD) (t : Fin cfg0.N) (h15 : t.val % 16 = 15) (j : S8x512.Idx) (i : S8x4096.Idx)
    (h0 : (i 0).val = (j 0).val) (h1 : (i 1).val = 512 * (t.val / 16) + (j 1).val) :
    outsAt0 V c t.val t.isLt j = Cert.Chamfer.nearArr (parr V c) (qarr V c) i := by
  have hN : cfg0.N = 128 := N_0
  have ht : t.val < 128 := lt_of_lt_of_eq t.isLt hN
  have hlt : 16 * (t.val / 16) + 15 < cfg0.N := by omega
  have hj : j = ix2 (n0 := 8) (n1 := 512) (j 0) (j 1) := eq_ix2 (n0 := 8) (n1 := 512) j
  have e : (j 0 : Fin 8) = (i 0 : Fin 8) := Fin.ext h0.symm
  rw [hj, outsAt_congr V c (show t.val = 16 * (t.val / 16) + 15 by omega) t.isLt hlt]
  refine (row_done V c (t.val / 16) (by omega) (j 0) (j 1) (i 1) h1 hlt).trans ?_
  unfold Cert.Chamfer.nearArr
  rw [e]

/-- What a flushing point writes back is its block of the nearest-point distances. -/
theorem flushed_eq (c : Dev nD) (t : Fin cfg0.N) (hf : (cfg0.win 2).flush t = true) :
    (dat0 V c).flushed 2 t
      = ((cfg0.win 2).blk t).view.read (Elt Ideal) (Cert.Chamfer.nearArr (parr V c) (qarr V c)) := by
  have h15 : t.val % 16 = 15 := (flush0_2 t).mp hf
  obtain ⟨-, -, -, -, -, -, e0, e1⟩ := idx_facts t
  show (cfg0.win 2).cut (grid0.coords t) ((dat0 V c).after 2 t) = _
  rw [after0_2]
  funext j
  refine last_apply V c t h15 j (((cfg0.win 2).blk t).view.emb j) ?_ ?_
  · show win0_2.index t (0 : Fin 2) * 8 + 1 * (j 0).val = (j 0).val; omega
  · show win0_2.index t (1 : Fin 2) * 512 + 1 * (j 1).val = 512 * (t.val / 16) + (j 1).val; omega

/-- Every entry of the result array lies in the block of the last tile of its row of the grid. -/
theorem cover (i : S8x4096.Idx) :
    ∃ t : Fin cfg0.N, (cfg0.win 2).flush t = true ∧ i ∈ ((cfg0.win 2).blk t).view.set := by
  have hN : cfg0.N = 128 := N_0
  have hi0 : (i 0).val < 8 := (i 0).isLt
  have hi1 : (i 1).val < 4096 := (i 1).isLt
  have hlt : 16 * ((i 1).val / 512) + 15 < cfg0.N := by omega
  refine ⟨⟨16 * ((i 1).val / 512) + 15, hlt⟩, (flush0_2 _).mpr (by show (16 * ((i 1).val / 512) + 15) % 16 = 15; omega), ?_⟩
  obtain ⟨-, -, -, -, -, -, e0, e1⟩ := idx_facts ⟨16 * ((i 1).val / 512) + 15, hlt⟩
  show i ∈ ((View.whole main_v0).slice (win0_2.rect ⟨16 * ((i 1).val / 512) + 15, hlt⟩)).set
  rw [View.set_slice_whole, Rect.mem_set_unit]
  intro a
  match a with
  | ⟨0, _⟩ =>
    show win0_2.index ⟨16 * ((i 1).val / 512) + 15, hlt⟩ (0 : Fin 2) * 8 ≤ (i 0).val
      ∧ (i 0).val < win0_2.index ⟨16 * ((i 1).val / 512) + 15, hlt⟩ (0 : Fin 2) * 8 + 8
    omega
  | ⟨1, _⟩ =>
    show win0_2.index ⟨16 * ((i 1).val / 512) + 15, hlt⟩ (1 : Fin 2) * 512 ≤ (i 1).val
      ∧ (i 1).val < win0_2.index ⟨16 * ((i 1).val / 512) + 15, hlt⟩ (1 : Fin 2) * 512 + 512
    have e1' : win0_2.index ⟨16 * ((i 1).val / 512) + 15, hlt⟩ (1 : Fin 2) = (16 * ((i 1).val / 512) + 15) / 16 := e1
    omega

/-- The result array after the call: the nearest-point distances from the points of the call's first operand to those
    of its second operand. -/
theorem final (c : Dev nD) :
    (dat0 (F := Ideal) V c).arrAt 2 cfg0.N = Cert.Chamfer.nearArr (V c main_arg0) (V c main_arg1) :=
  (dat0 V c).arrAt_eq_of_cover 2 (Cert.Chamfer.nearArr (parr V c) (qarr V c)) (flushed_eq V c) cover

end Cert.KernelIdeal.Region0
end
-- ==== Proof.Region1.lean ====
/-
  The second call's result array.

  The call runs over a grid of 8 × 16 points; point `t` works on the block of 512 points `512 (t / 16) …` of the
  call's first operand and on the block of 256 points `256 (t % 16) …` of its second operand, and its output block,
  the 512 nearest-point distances of row block `t / 16`, stays in place along a row of the grid: the first point of a row
  (`t % 16 = 0`) stores +∞ and then the minimum of that and of its tile's least distances, every later point the
  minimum of what the block held and of its own tile's; only after the last point of the row (`t % 16 = 15`) is the
  block written back. So after tile `j` the block holds, at `(b, r)`, the running minimum of the least distances of
  point `512 (t / 16) + r` of cloud `b` over the tiles `0 … j`, and a minimum taken tile by tile over 16 tiles of
  256 is the minimum over all 4096 points. The eight written-back blocks tile the `[8, 4096]` result array, which
  therefore ends holding the nearest-point distances `nearArr` from the points of the call's first operand to those of
  its second operand, both as the call finds them.
-/
import proofs.«128262_j24215025614920_1_alg».proof.Proof.Gen.KernelIdeal.Frame
import proofs.«128262_j24215025614920_1_alg».proof.Proof.Payload
import proofs.«128262_j24215025614920_1_alg».proof.Proof.LibTileFold
import Idealize.ShloMosaic.Lib.Pipeline.Value

noncomputable section

namespace Cert.KernelIdeal.Region1

open Idealize.ShloMosaic Idealize.ShloMosaic.TcCoe Idealize.ShloMosaic.ValueIdx Idealize.SL.Sem Idealize.ShloMosaic.Tactic
open Idealize.ShloMosaic.Pipeline (Dat)
open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

/-! ## What one grid point leaves in the output block

In both cases of the body's conditional the last store covers the whole block, so the block ends at that store's
value: one point's step applied to the two input blocks and to what the block held before the step — its previous
contents at a later point of a row, the +∞ block just stored at the first. -/

section Pieces
variable {F : FTy → Type} [FloatOps F]

/-- A later point of a row: the step over the block's previous contents. -/
theorem out_B (c : Dev nD) (i : grid1.Coords) (a2 : Memref sig .tc .vmem S8x512x3 .f32) (h2 : a2.IsWhole)
    (a3 : Memref sig .tc .vmem S8x256x3 .f32) (h3 : a3.IsWhole) (a4 : Memref sig .tc .vmem S8x512 .f32) (h4 : a4.IsWhole)
    (hc : ¬cond1_0 i) (p : Vec F S8x512x3 .f32) (q : Vec F S8x256x3 .f32) (old : Vec F S8x512 .f32) :
    out1_B_2 c i a2 h2 a3 h3 a4 h4 hc p q old = Tile.step p q old := by
  unfold out1_B_2
  rw [View.read_writes_eq_canon _ _ _ (cover1_B_2 c i a2 h2 a3 h3 a4 h4 hc p q old)]
  unfold kernelRun1_B
  dsimp only
  sl_unfold_words
  rw [View.canon_unit_zero hz2]
  simp only [View.readAt_eq_ld, h2.read_unread, h3.read_unread, h4.read_unread, View.ld_unit_zero (S := S8x512x3) hz3,
    View.ld_unit_zero (S := S8x256x3) hz3, View.ld_unit_zero (S := S8x512) hz2] <;> rfl

/-- The first point of a row: the step over the +∞ block it has just stored. -/
theorem out_A (c : Dev nD) (i : grid1.Coords) (a2 : Memref sig .tc .vmem S8x512x3 .f32) (h2 : a2.IsWhole)
    (a3 : Memref sig .tc .vmem S8x256x3 .f32) (h3 : a3.IsWhole) (a4 : Memref sig .tc .vmem S8x512 .f32) (h4 : a4.IsWhole)
    (hc : cond1_0 i) (p : Vec F S8x512x3 .f32) (q : Vec F S8x256x3 .f32) :
    out1_A_2 c i a2 h2 a3 h3 a4 h4 hc p q = Tile.step p q Tile.reset := by
  unfold out1_A_2
  rw [View.read_writes_eq_canon _ _ _ (cover1_A_2 c i a2 h2 a3 h3 a4 h4 hc p q)]
  unfold kernelRun1_A
  dsimp only
  sl_unfold_words
  rw [View.canon_cons_unit_zero (S := S8x512) hz2, View.readCov_unit_zero (S := S8x512) _ hz2]
  simp only [View.readAt_eq_ld, h2.read_unread, h3.read_unread, h4.read_unread, View.ld_unit_zero (S := S8x512x3) hz3,
    View.ld_unit_zero (S := S8x256x3) hz3, View.ld_unit_zero (S := S8x512) hz2] <;> rfl

end Pieces

/-! ## The input blocks are pieces of the argument arrays -/

variable (V : (c : Dev nD) → (b : Ref sig .tc) → Buf (Elt Ideal) ((c : Thread nD τ).loc b))

/-- The block of the call's first operand at grid point t, and of its second operand; the two operand arrays. -/
abbrev pblk (c : Dev nD) (t : Fin cfg1.N) : Vec Ideal S8x512x3 .f32 := iblk1 V c 0 t
abbrev qblk (c : Dev nD) (t : Fin cfg1.N) : Vec Ideal S8x256x3 .f32 := iblk1 V c 1 t
abbrev parr (c : Dev nD) : Cert.Chamfer.Cloud 8 4096 := V c main_arg1
abbrev qarr (c : Dev nD) : Cert.Chamfer.Cloud 8 4096 := V c main_arg0

/-- The three windows' block indices at grid point `t`. -/
theorem idx_facts : ∀ t : Fin cfg1.N, win1_0.index t (0 : Fin 3) = 0 ∧ win1_0.index t (1 : Fin 3) = t.val / 16
    ∧ win1_0.index t (2 : Fin 3) = 0 ∧ win1_1.index t (0 : Fin 3) = 0 ∧ win1_1.index t (1 : Fin 3) = t.val % 16
    ∧ win1_1.index t (2 : Fin 3) = 0 ∧ win1_2.index t (0 : Fin 2) = 0 ∧ win1_2.index t (1 : Fin 2) = t.val / 16 :=
  (by decide +kernel : ∀ t : Fin grid1.N, _)

/-- Row `r` of the first operand's block at `t` is point `512 (t / 16) + r`. -/
theorem pblk_apply (c : Dev nD) (t : Fin cfg1.N) (b : Fin 8) (r : Fin 512) (d : Fin 3) (n : Fin 4096)
    (hn : n.val = 512 * (t.val / 16) + r.val) : pblk V c t (ix3 b r d) = parr V c (ix3 b n d) := by
  obtain ⟨e0, e1, e2, -⟩ := idx_facts t
  unfold pblk iblk1
  rw [View.read_apply]
  show V c main_arg1 _ = V c main_arg1 _
  congr 1
  funext a
  apply Fin.ext
  match a with
  | ⟨0, _⟩ => show win1_0.index t (0 : Fin 3) * 8 + 1 * b.val = b.val; omega
  | ⟨1, _⟩ => show win1_0.index t (1 : Fin 3) * 512 + 1 * r.val = n.val; omega
  | ⟨2, _⟩ => show win1_0.index t (2 : Fin 3) * 3 + 1 * d.val = d.val; omega

/-- Row `s` of the second operand's block at `t` is point `256 (t % 16) + s`. -/
theorem qblk_apply (c : Dev nD) (t : Fin cfg1.N) (b : Fin 8) (s : Fin 256) (d : Fin 3) (k : Fin 4096)
    (hk : k.val = 256 * (t.val % 16) + s.val) : qblk V c t (ix3 b s d) = qarr V c (ix3 b k d) := by
  obtain ⟨-, -, -, e0, e1, e2, -⟩ := idx_facts t
  unfold qblk iblk1
  rw [View.read_apply]
  show V c main_arg0 _ = V c main_arg0 _
  congr 1
  funext a
  apply Fin.ext
  match a with
  | ⟨0, _⟩ => show win1_1.index t (0 : Fin 3) * 8 + 1 * b.val = b.val; omega
  | ⟨1, _⟩ => show win1_1.index t (1 : Fin 3) * 256 + 1 * s.val = k.val; omega
  | ⟨2, _⟩ => show win1_1.index t (2 : Fin 3) * 3 + 1 * d.val = d.val; omega

/-- The least distance from row r of the point block at t to the 256 points of the other block at t. -/
abbrev tileMin (c : Dev nD) (t : Fin cfg1.N) (b : Fin 8) (r : Fin 512) : EReal :=
  (Finset.univ : Finset (Fin 256)).fold min (Ideal.ofBits .f32 0x7F800000#32)
    fun s => Cert.Chamfer.dist (pblk V c t) (qblk V c t) b r s

/-- The first point of a row: the minimum of +∞ and of its tile's least distance. -/
theorem step_A (c : Dev nD) (t : Fin cfg1.N) (h0 : t.val % 16 = 0) (b : Fin 8) (r : Fin 512) :
    outsAt1 V c t.val t.isLt (ix2 b r) = min (Ideal.ofBits .f32 0x7F800000#32) (tileMin V c t b r) := by
  rw [outsAt1_A V c t h0]
  refine (congrFun (out_A (F := Ideal) c (grid1.coords t) (ms1_0 t) (hs1_0 t) (ms1_1 t) (hs1_1 t) (ms1_2 t) (hs1_2 t)
    ((hcond1_0 t).mpr h0) (pblk V c t) (qblk V c t)) (ix2 b r)).trans ?_
  refine (Tile.step_apply (pblk V c t) (qblk V c t) _ b r).trans ?_
  rw [Tile.reset_apply]

/-- A later point: the minimum of what the point before left and of its tile's least distance. -/
theorem step_B (c : Dev nD) (t : Fin cfg1.N) (h0 : ¬t.val % 16 = 0) (b : Fin 8) (r : Fin 512) :
    outsAt1 V c t.val t.isLt (ix2 b r)
      = min (outsAt1 V c (t.val - 1) (Nat.lt_of_le_of_lt (Nat.sub_le _ _) t.isLt) (ix2 b r)) (tileMin V c t b r) := by
  rw [outsAt1_B V c t h0]
  refine (congrFun (out_B (F := Ideal) c (grid1.coords t) (ms1_0 t) (hs1_0 t) (ms1_1 t) (hs1_1 t) (ms1_2 t) (hs1_2 t)
    (fun h => h0 ((hcond1_0 t).mp h)) (pblk V c t) (qblk V c t)
    (outsAt1 V c (t.val - 1) (Nat.lt_of_le_of_lt (Nat.sub_le _ _) t.isLt))) (ix2 b r)).trans ?_
  exact Tile.step_apply (pblk V c t) (qblk V c t) _ b r

/-! ## The running minimum along a row of the grid -/

theorem outsAt_congr (c : Dev nD) {n n' : ℕ} (e : n = n') (h : n < cfg1.N) (h' : n' < cfg1.N) :
    outsAt1 V c n h = outsAt1 V c n' h' := by
  subst e; rfl

/-- The distances from point n of cloud b of the first operand to the points of the second operand's cloud b. -/
def rowDist (c : Dev nD) (b : Fin 8) (n : Fin 4096) (m : Fin 4096) : EReal :=
  Cert.Chamfer.dist (parr V c) (qarr V c) b n m

/-- The same, cut into 16 tiles of 256 points: entry s of tile j is point 256 j + s. -/
def tileDist (c : Dev nD) (b : Fin 8) (n : Fin 4096) (j : ℕ) (s : Fin 256) : EReal :=
  if h : j * 256 + s.val < 4096 then rowDist V c b n ⟨j * 256 + s.val, h⟩ else Ideal.ofBits .f32 0x7F800000#32

/-- What the output block holds at (b, r) after tile j of row block nb of the grid. -/
def runMin (c : Dev nD) (nb : ℕ) (b : Fin 8) (r : Fin 512) (j : ℕ) : EReal :=
  if h : 16 * nb + j < cfg1.N then outsAt1 V c (16 * nb + j) h (ix2 b r) else Ideal.ofBits .f32 0x7F800000#32

/-- The block tile of point t is tile t % 16 of the row of distances of point 512 (t / 16) + r. -/
theorem tileMin_eq (c : Dev nD) (t : Fin cfg1.N) (b : Fin 8) (r : Fin 512) (n : Fin 4096) (nb j : ℕ)
    (ht : t.val = 16 * nb + j) (hj : j < 16) (hn : n.val = 512 * nb + r.val) :
    tileMin V c t b r = (Finset.univ : Finset (Fin 256)).fold min (Ideal.ofBits .f32 0x7F800000#32) (tileDist V c b n j) := by
  have hN : cfg1.N = 128 := N_1
  refine Finset.fold_congr fun s _ => ?_
  have hs : s.val < 256 := s.isLt
  have hlt : j * 256 + s.val < 4096 := by omega
  unfold tileDist
  rw [dif_pos hlt]
  unfold rowDist
  exact Cert.Chamfer.dist_congr _ _ _ _ b r s n ⟨j * 256 + s.val, hlt⟩
    (fun d => pblk_apply V c t b r d n (by rw [hn, ht]; omega))
    (fun d => qblk_apply V c t b s d ⟨j * 256 + s.val, hlt⟩ (by show j * 256 + s.val = _; rw [ht]; omega))

/-- After the last tile of row block nb the output block holds, at (b, r), the least distance from point
    512 nb + r to all 4096 points of the other cloud. -/
theorem row_done (c : Dev nD) (nb : ℕ) (hnb : nb < 8) (b : Fin 8) (r : Fin 512) (n : Fin 4096)
    (hn : n.val = 512 * nb + r.val) (hlt : 16 * nb + 15 < cfg1.N) :
    outsAt1 V c (16 * nb + 15) hlt (ix2 b r) = Cert.Chamfer.near (parr V c) (qarr V c) b n := by
  have hN : cfg1.N = 128 := N_1
  have key : runMin V c nb b r 15 = (Finset.univ : Finset (Fin 4096)).fold min (Ideal.ofBits .f32 0x7F800000#32)
      (rowDist V c b n) :=
    Cert.LibTileFold.fold_min_tiles (Ideal.ofBits .f32 0x7F800000#32) (a := 16) (n := 256) (N := 4096) rfl (by decide)
      (rowDist V c b n) (tileDist V c b n) (fun j hj s => dif_pos _) (runMin V c nb b r)
      (by
        have h0 : 16 * nb + 0 < cfg1.N := by omega
        unfold runMin
        rw [dif_pos h0]
        have hlt0 : 16 * nb < cfg1.N := by omega
        rw [outsAt_congr V c (Nat.add_zero _) h0 hlt0]
        rw [step_A V c ⟨16 * nb, hlt0⟩ (by show 16 * nb % 16 = 0; omega) b r,
          tileMin_eq V c ⟨16 * nb, hlt0⟩ b r n nb 0 rfl (by decide) hn])
      (fun j hj => by
        have h1 : 16 * nb + (j + 1) < cfg1.N := by omega
        have h2 : 16 * nb + j < cfg1.N := by omega
        unfold runMin
        rw [dif_pos h1, dif_pos h2]
        rw [step_B V c ⟨16 * nb + (j + 1), h1⟩ (by show ¬(16 * nb + (j + 1)) % 16 = 0; omega) b r,
          tileMin_eq V c ⟨16 * nb + (j + 1), h1⟩ b r n nb (j + 1) rfl hj hn]
        exact congrArg (min · _) (congrFun (outsAt_congr V c (by show 16 * nb + (j + 1) - 1 = 16 * nb + j; omega) _ h2) (ix2 b r)))
  have hM : runMin V c nb b r 15 = outsAt1 V c (16 * nb + 15) hlt (ix2 b r) := dif_pos hlt
  rw [← hM, key]
  rfl

/-! ## From the blocks to the array -/

/-- At the last tile of a row of the grid the output block holds the nearest-point distances of its 512 points. -/
theorem last_apply (c : Dev nD) (t : Fin cfg1.N) (h15 : t.val % 16 = 15) (j : S8x512.Idx) (i : S8x4096.Idx)
    (h0 : (i 0).val = (j 0).val) (h1 : (i 1).val = 512 * (t.val / 16) + (j 1).val) :
    outsAt1 V c t.val t.isLt j = Cert.Chamfer.nearArr (parr V c) (qarr V c) i := by
  have hN : cfg1.N = 128 := N_1
  have ht : t.val < 128 := lt_of_lt_of_eq t.isLt hN
  have hlt : 16 * (t.val / 16) + 15 < cfg1.N := by omega
  have hj : j = ix2 (n0 := 8) (n1 := 512) (j 0) (j 1) := eq_ix2 (n0 := 8) (n1 := 512) j
  have e : (j 0 : Fin 8) = (i 0 : Fin 8) := Fin.ext h0.symm
  rw [hj, outsAt_congr V c (show t.val = 16 * (t.val / 16) + 15 by omega) t.isLt hlt]
  refine (row_done V c (t.val / 16) (by omega) (j 0) (j 1) (i 1) h1 hlt).trans ?_
  unfold Cert.Chamfer.nearArr
  rw [e]

/-- What a flushing point writes back is its block of the nearest-point distances. -/
theorem flushed_eq (c : Dev nD) (t : Fin cfg1.N) (hf : (cfg1.win 2).flush t = true) :
    (dat1 V c).flushed 2 t
      = ((cfg1.win 2).blk t).view.read (Elt Ideal) (Cert.Chamfer.nearArr (parr V c) (qarr V c)) := by
  have h15 : t.val % 16 = 15 := (flush1_2 t).mp hf
  obtain ⟨-, -, -, -, -, -, e0, e1⟩ := idx_facts t
  show (cfg1.win 2).cut (grid1.coords t) ((dat1 V c).after 2 t) = _
  rw [after1_2]
  funext j
  refine last_apply V c t h15 j (((cfg1.win 2).blk t).view.emb j) ?_ ?_
  · show win1_2.index t (0 : Fin 2) * 8 + 1 * (j 0).val = (j 0).val; omega
  · show win1_2.index t (1 : Fin 2) * 512 + 1 * (j 1).val = 512 * (t.val / 16) + (j 1).val; omega

/-- Every entry of the result array lies in the block of the last tile of its row of the grid. -/
theorem cover (i : S8x4096.Idx) :
    ∃ t : Fin cfg1.N, (cfg1.win 2).flush t = true ∧ i ∈ ((cfg1.win 2).blk t).view.set := by
  have hN : cfg1.N = 128 := N_1
  have hi0 : (i 0).val < 8 := (i 0).isLt
  have hi1 : (i 1).val < 4096 := (i 1).isLt
  have hlt : 16 * ((i 1).val / 512) + 15 < cfg1.N := by omega
  refine ⟨⟨16 * ((i 1).val / 512) + 15, hlt⟩, (flush1_2 _).mpr (by show (16 * ((i 1).val / 512) + 15) % 16 = 15; omega), ?_⟩
  obtain ⟨-, -, -, -, -, -, e0, e1⟩ := idx_facts ⟨16 * ((i 1).val / 512) + 15, hlt⟩
  show i ∈ ((View.whole main_v1).slice (win1_2.rect ⟨16 * ((i 1).val / 512) + 15, hlt⟩)).set
  rw [View.set_slice_whole, Rect.mem_set_unit]
  intro a
  match a with
  | ⟨0, _⟩ =>
    show win1_2.index ⟨16 * ((i 1).val / 512) + 15, hlt⟩ (0 : Fin 2) * 8 ≤ (i 0).val
      ∧ (i 0).val < win1_2.index ⟨16 * ((i 1).val / 512) + 15, hlt⟩ (0 : Fin 2) * 8 + 8
    omega
  | ⟨1, _⟩ =>
    show win1_2.index ⟨16 * ((i 1).val / 512) + 15, hlt⟩ (1 : Fin 2) * 512 ≤ (i 1).val
      ∧ (i 1).val < win1_2.index ⟨16 * ((i 1).val / 512) + 15, hlt⟩ (1 : Fin 2) * 512 + 512
    have e1' : win1_2.index ⟨16 * ((i 1).val / 512) + 15, hlt⟩ (1 : Fin 2) = (16 * ((i 1).val / 512) + 15) / 16 := e1
    omega

/-- The result array after the call: the nearest-point distances from the points of the call's first operand to those
    of its second operand. -/
theorem final (c : Dev nD) :
    (dat1 (F := Ideal) V c).arrAt 2 cfg1.N = Cert.Chamfer.nearArr (V c main_arg1) (V c main_arg0) :=
  (dat1 V c).arrAt_eq_of_cover 2 (Cert.Chamfer.nearArr (parr V c) (qarr V c)) (flushed_eq V c) cover

end Cert.KernelIdeal.Region1
end
-- ==== Proof.KernelValue.lean ====
/-
  The idealized kernel program's result is the loss of the specification.

  The two calls leave the two directed nearest-point arrays in their result buffers, the second call leaving the first
  call's buffer alone; the host operations after them take, of each array, zero plus the sum of all its entries divided
  by the number of entries, add the two means and weight the sum by one.
-/
import proofs.«128262_j24215025614920_1_alg».proof.Proof.Region0
import proofs.«128262_j24215025614920_1_alg».proof.Proof.Region1
import proofs.«128262_j24215025614920_1_alg».proof.Proof.Spec
import Idealize.ShloMosaic.Lib.StableHlo.Run
import Idealize.ShloMosaic.Lib.IdealHost
import Idealize.ShloMosaic.PureOps.Ideal.Laws

noncomputable section

namespace Cert.KernelIdeal.KernelValue

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The first call leaves the first argument array as launched. -/
theorem W1_arg0 (c : Dev nD) :
    W1 (F := Ideal) m ρ c (Proc.devRef .tc main_arg0) = m ((c.tc : Thread nD τ).loc main_arg0) :=
  (W1_arr m ρ c 0).trans (((dat0 (V0 m ρ) c).arrAt_in 0 rfl _).trans (A_eq0 (V0 m ρ) c 0))

/-- The first call leaves the second argument array as launched. -/
theorem W1_arg1 (c : Dev nD) :
    W1 (F := Ideal) m ρ c (Proc.devRef .tc main_arg1) = m ((c.tc : Thread nD τ).loc main_arg1) :=
  (W1_arr m ρ c 1).trans (((dat0 (V0 m ρ) c).arrAt_in 1 rfl _).trans (A_eq0 (V0 m ρ) c 1))

/-- After both calls the second call's result buffer holds the nearest-point distances from the second batch to the first. -/
theorem W2_v1 (c : Dev nD) :
    W2 (F := Ideal) m ρ c (Proc.devRef .tc main_v1)
      = Cert.Chamfer.nearArr (m ((c.tc : Thread nD τ).loc main_arg1)) (m ((c.tc : Thread nD τ).loc main_arg0)) :=
  (W2_arr m ρ c 2).trans ((Region1.final (V1 m ρ) c).trans
    (congrArg₂ (Cert.Chamfer.nearArr (A := 8) (N := 4096) (M := 4096)) (W1_arg1 m ρ c) (W1_arg0 m ρ c)))

/-- After both calls the first call's result buffer still holds the nearest-point distances from the first batch to the second. -/
theorem W2_v0 (c : Dev nD) :
    W2 (F := Ideal) m ρ c (Proc.devRef .tc main_v0)
      = Cert.Chamfer.nearArr (m ((c.tc : Thread nD τ).loc main_arg0)) (m ((c.tc : Thread nD τ).loc main_arg1)) :=
  (W2_of_ne m ρ c main_v0 (fun w => by fin_cases w <;> decide)).trans
    ((W1_arr m ρ c 2).trans (Region0.final (V0 m ρ) c))

/-- The result buffer after the host operations holds the loss. -/
theorem result_eq (c : Dev nD) :
    W3 (F := Ideal) m ρ c (Proc.devRef .tc main_v7)
      = fun _ => Cert.Chamfer.loss (m ((c.tc : Thread nD τ).loc main_arg0)) (m ((c.tc : Thread nD τ).loc main_arg1)) := by
  have h0 := W2_v0 m ρ c
  have h1 := W2_v1 m ρ c
  show StableHlo.after hostOps2 (W2 m ρ c) (Proc.devRef .tc main_v7) = _
  generalize W2 m ρ c = W at h0 h1 ⊢
  unfold hostOps2
  after_results
  rw [h0, h1]
  funext i
  simp only [mulf_apply, addf_apply, hostDivf_apply, hostReduceAdd_apply, constant_apply]
  rw [Ideal.hostReduceAdd_total reducesTo_S8x4096_S_d0_1 (fun b => b.elim0),
    Ideal.hostReduceAdd_total reducesTo_S8x4096_S_d0_1 (fun b => b.elim0)]
  unfold Cert.Chamfer.loss Cert.Chamfer.meanAll
  rfl

end Cert.KernelIdeal.KernelValue

end
-- ==== Proof.lean ====
/- The three programs run and leave their argument arrays as launched; and at the extended reals the idealized kernel
   program and the reference both end with the chamfer loss of their two argument batches, so from equal arguments their results are equal. -/
import proofs.«128262_j24215025614920_1_alg».proof.Defs
import proofs.«128262_j24215025614920_1_alg».proof.Proof.Gen.Kernel
import proofs.«128262_j24215025614920_1_alg».proof.Proof.Gen.Kernel.Skeleton
import proofs.«128262_j24215025614920_1_alg».proof.Proof.Gen.Kernel.Launch
import proofs.«128262_j24215025614920_1_alg».proof.Proof.Gen.Kernel.Points
import proofs.«128262_j24215025614920_1_alg».proof.Proof.Gen.Kernel.Frame
import proofs.«128262_j24215025614920_1_alg».proof.Proof.Gen.KernelIdeal
import proofs.«128262_j24215025614920_1_alg».proof.Proof.Gen.KernelIdeal.Skeleton
import proofs.«128262_j24215025614920_1_alg».proof.Proof.Gen.KernelIdeal.Launch
import proofs.«128262_j24215025614920_1_alg».proof.Proof.Gen.KernelIdeal.Points
import proofs.«128262_j24215025614920_1_alg».proof.Proof.Gen.KernelIdeal.Frame
import proofs.«128262_j24215025614920_1_alg».proof.Proof.Gen.ReferenceIdeal
import proofs.«128262_j24215025614920_1_alg».proof.Proof.Gen.Pre_finite_inputs
import proofs.«128262_j24215025614920_1_alg».proof.Proof.Gen.ReferenceIdeal.Run
import proofs.«128262_j24215025614920_1_alg».proof.Proof.Gen.ReferenceIdeal.Read
import Idealize.ShloMosaic.Adequacy
import Idealize.ShloMosaic.Init
import proofs.«128262_j24215025614920_1_alg».proof.Proof.RefSpec
import proofs.«128262_j24215025614920_1_alg».proof.Proof.KernelRun
import proofs.«128262_j24215025614920_1_alg».proof.Proof.KernelValue

noncomputable section

namespace Cert.Proof

open Idealize.ShloMosaic Idealize.SL.Sem Cert.Kernel

/-- At the extended reals both programs, from memories that agree on the two argument batches, run, leave the arguments
    as launched and end with the same result: the loss of the two batches. -/
theorem algebraic : Cert.algebraic_KernelIdeal_ReferenceIdeal := by
  intro m ρ m' ρ' _ hagree
  refine ⟨fun c => fun _ => Cert.Chamfer.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    (θ_run Cert.KernelIdeal.defs _ _).mono
      (fun _ h c => ⟨(h c).1.trans (Cert.KernelIdeal.KernelValue.result_eq m ρ c), (h c).2⟩)
      (Cert.KernelIdeal.KernelRun.run m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq]
  funext i
  rw [Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  algebraic⟩

end Cert.Proof

end
